-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg1 main_v59
  let main_c_23 : IVec S_ 1 := constantI S_ 1 1#1
  let main_v61 : IVec S_ 1 := (fun x v => Host.reduce IntOp.andi x v reducesTo_S2x800000_S_d0_1 h_S_) main_v60 main_c_23
  let main_v62 : IVec S_ 1 := andi main_v58 main_v61
  let main_c_24 : IVec S_ 32 := constantI S_ 32 50000#32
  let main_v63 : IVec S2x800000 32 := broadcastInDim S2x800000 ![] bcast_S_S2x800000 main_c_24
  let main_v64 : IVec S2x800000 1 := cmpi .slt main_arg1 main_v63
  let main_c_25 : IVec S_ 1 := constantI S_ 1 1#1
  let main_v65 : IVec S_ 1 := (fun x v => Host.reduce IntOp.andi x v reducesTo_S2x800000_S_d0_1 h_S_) main_v64 main_c_25
  let main_v66 : IVec S_ 1 := andi main_v62 main_v65
  main_v66

def fn_part2 {F : FTy → Type} [FloatOps F] (main_arg1 : IVec S2x800000 32) (main_arg8 : FVec F S1 .f32) (main_arg9 : FVec F S256x128 .f32) (main_arg10 : FVec F S128 .f32) (main_arg11 : FVec F S128x128 .f32) (main_arg12 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_v48 main_v49 main_v50

def fn_part1 {F : FTy → Type} [FloatOps F] (main_arg1 : IVec S2x800000 32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x800000 32) (main_arg2 : FVec F S800000x16 .f32) (main_arg3 : FVec F S272x128 .f32) (main_arg4 : FVec F S128 .f32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S272x128 .f32 := Host.absf main_arg3
  let main_cst_2 : FVec F S_ .f32 := constant S_ .f32 0x7F800000#32
  let main_v10 : FVec F S272x128 .f32 := broadcastInDim S272x128 ![] bcast_S_S272x128 main_cst_2
  let main_v11 : IVec S272x128 1 := cmpf .olt main_v9 main_v10
  let main_c_3 : IVec S_ 1 := constantI S_ 1 1#1
  let main_v12 : IVec S_ 1 := (fun x v => Host.reduce IntOp.andi x v reducesTo_S272x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S16x128 : Shape := ⟨2, ![16, 128]⟩
abbrev S1x128 : Shape := ⟨2, ![1, 128]⟩
abbrev S1600x128 : Shape := ⟨2, ![1600, 128]⟩
abbrev S1600x16 : Shape := ⟨2, ![1600, 16]⟩
abbrev S1600x1 : Shape := ⟨2, ![1600, 1]⟩
abbrev S5000x128 : Shape := ⟨2, ![5000, 128]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S272x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x128, .f32⟩
  | .hbm, ⟨36, _⟩ => ⟨S800000x128, .i1⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S1, .i32⟩
  | .hbm, ⟨49, _⟩ => ⟨S_, .i32⟩
  | .hbm, ⟨50, _⟩ => ⟨S800000x1, .i32⟩
  | .hbm, ⟨51, _⟩ => ⟨S800000x1, .i1⟩
  | .hbm, ⟨52, _⟩ => ⟨S1x1, .i32⟩
  | .hbm, ⟨53, _⟩ => ⟨S800000x1, .i32⟩
  | .hbm, ⟨54, _⟩ => ⟨S800000x1, .i1⟩
  | .hbm, ⟨55, _⟩ => ⟨S800000x1, .i1⟩
  | .hbm, ⟨56, _⟩ => ⟨S_, .i1⟩
  | .hbm, ⟨57, _⟩ => ⟨S800000, .i1⟩
  | .hbm, ⟨58, _⟩ => ⟨S800000x128, .f32⟩
  | .hbm, ⟨59, _⟩ => ⟨S800000x128, .i1⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S128x128, .f32⟩
  | .hbm, ⟨64, _⟩ => ⟨S128x128, .f32⟩
  | .hbm, ⟨65, _⟩ => ⟨S16x128, .f32⟩
  | .hbm, ⟨66, _⟩ => ⟨S1x128, .f32⟩
  | .hbm, ⟨67, _⟩ => ⟨S1x128, .f32⟩
  | .hbm, ⟨68, _⟩ => ⟨S1x1, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S128x128, .f32⟩
  | .hbm, ⟨75, _⟩ => ⟨S128x128, .f32⟩
  | .hbm, ⟨76, _⟩ => ⟨S1x128, .f32⟩
  | .hbm, ⟨77, _⟩ => ⟨S1x128, .f32⟩
  | .hbm, ⟨78, _⟩ => ⟨S50000x128, .f32⟩
  | .local _ .vmem, ⟨0, _⟩ => ⟨S1600x128, .f32⟩
  | .local _ .vmem, ⟨1, _⟩ => ⟨S1600x128, .f32⟩
  | .local _ .vmem, ⟨2, _⟩ => ⟨S1600x128, .f32⟩
  | .local _ .vmem, ⟨3, _⟩ => ⟨S1600x128, .f32⟩
  | .local _ .vmem, ⟨4, _⟩ => ⟨S1600x16, .f32⟩
  | .local _ .vmem, ⟨5, _⟩ => ⟨S1600x16, .f32⟩
  | .local _ .vmem, ⟨6, _⟩ => ⟨S128x128, .f32⟩
  | .local _ .vmem, ⟨7, _⟩ => ⟨S128x128, .f32⟩
  | .local _ .vmem, ⟨8, _⟩ => ⟨S16x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S1600x128, .f32⟩
  | .local _ .vmem, ⟨15, _⟩ => ⟨S1600x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_cst : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1600x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S272x128_S128x128_0_0 : S272x128.Slices ![0, 0] S128x128
  slices_S272x128_S128x128_128_0 : S272x128.Slices ![128, 0] S128x128
  slices_S272x128_S16x128_256_0 : S272x128.Slices ![256, 0] S16x128
  shapeCasts_S128_S1x128 : S128.ShapeCasts S1x128
  shapeCasts_S1_S1x1 : S1.ShapeCasts S1x1
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  bitsLt_bf16_f32 : FTy.bits .bf16 < FTy.bits .f32
  inb_S1600x16_S1600x16_0_0 : ∀ a, (![0, 0] : Fin 2 → Nat) a + S1600x16.size a ≤ S1600x16.size a
  h_S1600x16 : 0 < S1600x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1600x1 : S1x1.Broadcasts S1600x1
  broadcasts_S1600x1_S1600x128 : S1600x1.Broadcasts S1600x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S1600x128_S128x128_S1600x128_1_0_0_1_n_n_wf : DotDims.WF S1600x128 S128x128 S1600x128 [1] [0] [0] [1] [] []
  dot_S1600x16_S16x128_S1600x128_1_0_0_1_n_n_wf : DotDims.WF S1600x16 S16x128 S1600x128 [1] [0] [0] [1] [] []
  dot_S1600x128_S128x1_S1600x1_1_0_0_1_n_n_wf : DotDims.WF S1600x128 S128x1 S1600x1 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S800000x128.size a
  hwx0_0 : ∀ i : grid0.Coords, EltTy.bits .f32 = 32 ∨ (Rect.block (s := S800000x128) S1600x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S800000x128.size a
  hwx0_1 : ∀ i : grid0.Coords, EltTy.bits .f32 = 32 ∨ (Rect.block (s := S800000x128) S1600x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x16.size a ≤ S800000x16.size a
  hwx0_2 : ∀ i : grid0.Coords, EltTy.bits .f32 = 32 ∨ (Rect.block (s := S800000x16) S1600x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1600x128.size a ≤ S800000x128.size a
  hwx0_11 : ∀ i : grid0.Coords, EltTy.bits .f32 = 32 ∨ (Rect.block (s := S800000x128) S1600x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf
def dot_S1600x16_S16x128_S1600x128_1_0_0_1_n_n : DotDims S1600x16 S16x128 S1600x128 where
  lhsContracting := [1]
  rhsContracting := [0]
  lhsNonContracting := [0]
  rhsNonContracting := [1]
  lhsBatch := []
  rhsBatch := []
  wf := dot_S1600x16_S16x128_S1600x128_1_0_0_1_n_n_wf
def dot_S1600x128_S128x1_S1600x1_1_0_0_1_n_n : DotDims S1600x128 S128x1 S1600x1 where
  lhsContracting := [1]
  rhsContracting := [0]
  lhsNonContracting := [0]
  rhsNonContracting := [1]
  lhsBatch := []
  rhsBatch := []
  wf := dot_S1600x128_S128x1_S1600x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1600x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1600x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x272 : Shape := ⟨2, ![800000, 272]⟩
abbrev S1x128 : Shape := ⟨2, ![1, 128]⟩
abbrev S1x1 : Shape := ⟨2, ![1, 1]⟩
abbrev S50000x256 : Shape := ⟨2, ![50000, 256]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S272x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x272, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S800000x1, .f32⟩
  | .hbm, ⟨54, _⟩ => ⟨S1x1, .f32⟩
  | .hbm, ⟨55, _⟩ => ⟨S800000x1, .f32⟩
  | .hbm, ⟨56, _⟩ => ⟨S800000x1, .f32⟩
  | .hbm, ⟨57, _⟩ => ⟨S800000x1, .f32⟩
  | .hbm, ⟨58, _⟩ => ⟨S800000x1, .f32⟩
  | .hbm, ⟨59, _⟩ => ⟨S_, .f32⟩
  | .hbm, ⟨60, _⟩ => ⟨S800000x1, .f32⟩
  | .hbm, ⟨61, _⟩ => ⟨S800000x1, .f32⟩
  | .hbm, ⟨62, _⟩ => ⟨S_, .f32⟩
  | .hbm, ⟨63, _⟩ => ⟨S800000x1, .f32⟩
  | .hbm, ⟨64, _⟩ => ⟨S800000x1, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x256, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x16_S800000x272_d1 : Shape.Concatenates [S800000x128, S800000x128, S800000x16] S800000x272 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x272_S272x128_S800000x128_1_0_0_1_n_n_wf : DotDims.WF S800000x272 S272x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x272_S272x128_S800000x128_1_0_0_1_n_n : DotDims S800000x272 S272x128 S800000x128 where
  lhsContracting := [1]
  rhsContracting := [0]
  lhsNonContracting := [0]
  rhsNonContracting := [1]
  lhsBatch := []
  rhsBatch := []
  wf := dot_S800000x272_S272x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelHost.lean ====
/-
  What the host stretches of the kernel program leave in the buffers the two regions read, as terms of the launch
  memory: the two index rows, the two "take" results (a gather of node-feature rows, masked by an in-bounds test
  and filled with a not-a-number word outside it), the weight blocks and bias rows, and, after the edge region,
  the scattered sum of its output. Inside the table, that is, for indices in [0, 50000), the in-bounds test is 1 at
  every edge and a take is the plain gather.
-/
import proofs.«400389_j50792283242910_1_alg».proof.Proof.Gen.KernelIdeal.Frame
import Idealize.ShloMosaic.Lib.StableHlo.Run
import Idealize.ShloMosaic.PureOps.Ideal
import Idealize.ShloMosaic.PureOps.Reduce
import Idealize.ShloMosaic.Lib.ValueIdx

set_option maxRecDepth 16384

noncomputable section

namespace Cert.KernelIdeal.HostValue

open Cert.KernelIdeal Cert.KernelIdeal.Facts₀ Idealize.ShloMosaic Idealize.ShloMosaic.TcCoe Idealize.SL.Sem
open Idealize.ShloMosaic.StableHlo

section Terms
variable {F : FTy → Type} [FloatOps F]

/-- Row 0 of the index array: each edge's source node. -/
def startIdx (a1 : IVec S2x800000 32) : IVec S800000 32 :=
  shapeCast S800000 (extractStridedSlice S1x800000 ![0, 0] a1 slices_S2x800000_S1x800000_0_0) shapeCasts_S1x800000_S800000

/-- Row 1 of the index array: each edge's target node. -/
def endIdx (a1 : IVec S2x800000 32) : IVec S800000 32 :=
  shapeCast S800000 (extractStridedSlice S1x800000 ![1, 0] a1 slices_S2x800000_S1x800000_1_0) shapeCasts_S1x800000_S800000

/-- A negative index counts from the end: idx + 50000 where idx < 0. -/
def normIdx (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- The normalised indices as a column of start indices. -/
def idxCol (idx : IVec S800000 32) : IVec S800000x1 32 :=
  broadcastInDim S800000x1 ![0] bcast_S800000_S800000x1_0 (normIdx idx)

/-- Per edge: is the normalised index inside [0, 49999]? -/
def inBounds (idx : IVec S800000 32) : IVec S800000 1 :=
  Host.reduce IntOp.andi
    (andi (cmpi .sge (idxCol idx) (broadcastInDim S800000x1 ![] bcast_S_S800000x1 (constantI S_ 32 0#32)))
      (cmpi .sle (idxCol idx)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The rows of x at the indices, with a not-a-number row where the index is out of bounds. -/
def takeRows (x : FVec F S50000x128 .f32) (idx : IVec S800000 32) : FVec F S800000x128 .f32 :=
  select (broadcastInDim S800000x128 ![0] bcast_S800000_S800000x128_0 (inBounds idx))
    (Host.gather gather_S50000x128_S800000x1_S800000x128_1_0_n_n_0_1_1128 x (idxCol idx))
    (broadcastInDim S800000x128 ![] bcast_S_S800000x128 (constant S_ .f32 0x7FC00000#32))

end Terms

/-! ## The two takes as lists of operations on the buffers themselves -/

section Take
variable {F : FTy → Type} [FloatOps F]

/-- The first take (of the source nodes' rows), operation by operation, on the buffers themselves; the row
    reduction of the in-bounds test is a parameter. -/
abbrev takeOps0 (red : (⟨S800000x1, .i1⟩ : BufTy).Contents (Elt F) → (⟨S_, .i1⟩ : BufTy).Contents (Elt F) → (⟨S800000, .i1⟩ : BufTy).Contents (Elt F)) : List (HloOp τ sig (Elt F)) :=
  [ StableHlo.nullary main_call0_c ((constantI S_ 32 0#32) : (⟨S_, .i32⟩ : BufTy).Contents (Elt F)),
    StableHlo.unary main_call0_c main_call0_v0 ((broadcastInDim S800000 ![] bcast_S_S800000) : (⟨S_, .i32⟩ : BufTy).Contents (Elt F) → (⟨S800000, .i32⟩ : BufTy).Contents (Elt F)),
    StableHlo.binary main_v1 main_call0_v0 main_call0_v1 ((cmpi .slt) : (⟨S800000, .i32⟩ : BufTy).Contents (Elt F) → (⟨S800000, .i32⟩ : BufTy).Contents (Elt F) → (⟨S800000, .i1⟩ : BufTy).Contents (Elt F)),
    StableHlo.nullary main_call0_c_0 ((constantI S_ 32 50000#32) : (⟨S_, .i32⟩ : BufTy).Contents (Elt F)),
    StableHlo.unary main_call0_c_0 main_call0_v2 ((broadcastInDim S800000 ![] bcast_S_S800000) : (⟨S_, .i32⟩ : BufTy).Contents (Elt F) → (⟨S800000, .i32⟩ : BufTy).Contents (Elt F)),
    StableHlo.binary main_v1 main_call0_v2 main_call0_v3 ((addi) : (⟨S800000, .i32⟩ : BufTy).Contents (Elt F) → (⟨S800000, .i32⟩ : BufTy).Contents (Elt F) → (⟨S800000, .i32⟩ : BufTy).Contents (Elt F)),
    StableHlo.ternary main_call0_v1 main_call0_v3 main_v1 main_call0_v4 ((select) : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call0_v4 main_call0_v5 ((broadcastInDim S800000x1 ![0] bcast_S800000_S800000x1_0) : (⟨S800000, .i32⟩ : BufTy).Contents (Elt F) → (⟨S800000x1, .i32⟩ : BufTy).Contents (Elt F)),
    StableHlo.nullary main_call0_c_1 ((constantI S1 32 49999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S800000x1 ![] bcast_S_S800000x1) : (⟨S_, .i32⟩ : BufTy).Contents (Elt F) → (⟨S800000x1, .i32⟩ : BufTy).Contents (Elt F)),
    StableHlo.binary main_call0_v5 main_call0_v6 main_call0_v7 ((cmpi .sge) : (⟨S800000x1, .i32⟩ : BufTy).Contents (Elt F) → (⟨S800000x1, .i32⟩ : BufTy).Contents (Elt F) → (⟨S800000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S800000x1 ![0, 1] bcast_S1x1_S800000x1_0_1) : (⟨S1x1, .i32⟩ : BufTy).Contents (Elt F) → (⟨S800000x1, .i32⟩ : BufTy).Contents (Elt F)),
    StableHlo.binary main_call0_v5 main_call0_v9 main_call0_v10 ((cmpi .sle) : (⟨S800000x1, .i32⟩ : BufTy).Contents (Elt F) → (⟨S800000x1, .i32⟩ : BufTy).Contents (Elt F) → (⟨S800000x1, .i1⟩ : BufTy).Contents (Elt F)),
    StableHlo.binary main_call0_v7 main_call0_v10 main_call0_v11 ((andi) : (⟨S800000x1, .i1⟩ : BufTy).Contents (Elt F) → (⟨S800000x1, .i1⟩ : BufTy).Contents (Elt F) → (⟨S800000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 (red : (⟨S800000x1, .i1⟩ : BufTy).Contents (Elt F) → (⟨S_, .i1⟩ : BufTy).Contents (Elt F) → (⟨S800000, .i1⟩ : BufTy).Contents (Elt F)),
    StableHlo.binary main_arg0 main_call0_v5 main_call0_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call0_v12 main_call0_v14 ((broadcastInDim S800000x128 ![0] bcast_S800000_S800000x128_0) : (⟨S800000, .i1⟩ : BufTy).Contents (Elt F) → (⟨S800000x128, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S800000x128 ![] bcast_S_S800000x128) : (⟨S_, .f32⟩ : BufTy).Contents (Elt F) → (⟨S800000x128, .f32⟩ : BufTy).Contents (Elt F)),
    StableHlo.ternary main_call0_v14 main_call0_v13 main_call0_v15 main_v4 ((select) : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

/-- The second take (of the target nodes' rows), likewise. -/
abbrev takeOps1 (red : (⟨S800000x1, .i1⟩ : BufTy).Contents (Elt F) → (⟨S_, .i1⟩ : BufTy).Contents (Elt F) → (⟨S800000, .i1⟩ : BufTy).Contents (Elt F)) : List (HloOp τ sig (Elt F)) :=
  [ StableHlo.nullary main_call1_c ((constantI S_ 32 0#32) : (⟨S_, .i32⟩ : BufTy).Contents (Elt F)),
    StableHlo.unary main_call1_c main_call1_v0 ((broadcastInDim S800000 ![] bcast_S_S800000) : (⟨S_, .i32⟩ : BufTy).Contents (Elt F) → (⟨S800000, .i32⟩ : BufTy).Contents (Elt F)),
    StableHlo.binary main_v3 main_call1_v0 main_call1_v1 ((cmpi .slt) : (⟨S800000, .i32⟩ : BufTy).Contents (Elt F) → (⟨S800000, .i32⟩ : BufTy).Contents (Elt F) → (⟨S800000, .i1⟩ : BufTy).Contents (Elt F)),
    StableHlo.nullary main_call1_c_0 ((constantI S_ 32 50000#32) : (⟨S_, .i32⟩ : BufTy).Contents (Elt F)),
    StableHlo.unary main_call1_c_0 main_call1_v2 ((broadcastInDim S800000 ![] bcast_S_S800000) : (⟨S_, .i32⟩ : BufTy).Contents (Elt F) → (⟨S800000, .i32⟩ : BufTy).Contents (Elt F)),
    StableHlo.binary main_v3 main_call1_v2 main_call1_v3 ((addi) : (⟨S800000, .i32⟩ : BufTy).Contents (Elt F) → (⟨S800000, .i32⟩ : BufTy).Contents (Elt F) → (⟨S800000, .i32⟩ : BufTy).Contents (Elt F)),
    StableHlo.ternary main_call1_v1 main_call1_v3 main_v3 main_call1_v4 ((select) : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call1_v4 main_call1_v5 ((broadcastInDim S800000x1 ![0] bcast_S800000_S800000x1_0) : (⟨S800000, .i32⟩ : BufTy).Contents (Elt F) → (⟨S800000x1, .i32⟩ : BufTy).Contents (Elt F)),
    StableHlo.nullary main_call1_c_1 ((constantI S1 32 49999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S800000x1 ![] bcast_S_S800000x1) : (⟨S_, .i32⟩ : BufTy).Contents (Elt F) → (⟨S800000x1, .i32⟩ : BufTy).Contents (Elt F)),
    StableHlo.binary main_call1_v5 main_call1_v6 main_call1_v7 ((cmpi .sge) : (⟨S800000x1, .i32⟩ : BufTy).Contents (Elt F) → (⟨S800000x1, .i32⟩ : BufTy).Contents (Elt F) → (⟨S800000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S800000x1 ![0, 1] bcast_S1x1_S800000x1_0_1) : (⟨S1x1, .i32⟩ : BufTy).Contents (Elt F) → (⟨S800000x1, .i32⟩ : BufTy).Contents (Elt F)),
    StableHlo.binary main_call1_v5 main_call1_v9 main_call1_v10 ((cmpi .sle) : (⟨S800000x1, .i32⟩ : BufTy).Contents (Elt F) → (⟨S800000x1, .i32⟩ : BufTy).Contents (Elt F) → (⟨S800000x1, .i1⟩ : BufTy).Contents (Elt F)),
    StableHlo.binary main_call1_v7 main_call1_v10 main_call1_v11 ((andi) : (⟨S800000x1, .i1⟩ : BufTy).Contents (Elt F) → (⟨S800000x1, .i1⟩ : BufTy).Contents (Elt F) → (⟨S800000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 (red : (⟨S800000x1, .i1⟩ : BufTy).Contents (Elt F) → (⟨S_, .i1⟩ : BufTy).Contents (Elt F) → (⟨S800000, .i1⟩ : BufTy).Contents (Elt F)),
    StableHlo.binary main_arg0 main_call1_v5 main_call1_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call1_v12 main_call1_v14 ((broadcastInDim S800000x128 ![0] bcast_S800000_S800000x128_0) : (⟨S800000, .i1⟩ : BufTy).Contents (Elt F) → (⟨S800000x128, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S800000x128 ![] bcast_S_S800000x128) : (⟨S_, .f32⟩ : BufTy).Contents (Elt F) → (⟨S800000x128, .f32⟩ : BufTy).Contents (Elt F)),
    StableHlo.ternary main_call1_v14 main_call1_v13 main_call1_v15 main_v5 ((select) : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

/-- The same operations through typed references are those operations: a typed reference's transport of contents
    is the identity. The reduction stays a parameter, so that nothing here opens it. -/
theorem typed0 (red : (⟨S800000x1, .i1⟩ : BufTy).Contents (Elt F) → (⟨S_, .i1⟩ : BufTy).Contents (Elt F) → (⟨S800000, .i1⟩ : BufTy).Contents (Elt F)) :
    ([ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0),
    StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) red,
    StableHlo.TRef.binary (.of main_arg0 : StableHlo.TRef sig ⟨S50000x128, .f32⟩) (.of main_call0_v5 : StableHlo.TRef sig ⟨S800000x1, .i32⟩) (.of main_call0_v13 : StableHlo.TRef sig ⟨S800000x128, .f32⟩) (fun x i => Host.gather gather_S50000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v4 : StableHlo.TRef sig ⟨S800000x128, .f32⟩) select ] : List (HloOp τ sig (Elt F))) = takeOps0 red := rfl

theorem typed1 (red : (⟨S800000x1, .i1⟩ : BufTy).Contents (Elt F) → (⟨S_, .i1⟩ : BufTy).Contents (Elt F) → (⟨S800000, .i1⟩ : BufTy).Contents (Elt F)) :
    ([ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v3 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v3 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v3 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0),
    StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) red,
    StableHlo.TRef.binary (.of main_arg0 : StableHlo.TRef sig ⟨S50000x128, .f32⟩) (.of main_call1_v5 : StableHlo.TRef sig ⟨S800000x1, .i32⟩) (.of main_call1_v13 : StableHlo.TRef sig ⟨S800000x128, .f32⟩) (fun x i => Host.gather gather_S50000x128_S800000x1_S800000x128_1_0_n_n_0_1_1128 x i),
    StableHlo.TRef.unary (.of main_call1_v12 : StableHlo.TRef sig ⟨S800000, .i1⟩) (.of main_call1_v14 : StableHlo.TRef sig ⟨S800000x128, .i1⟩) (broadcastInDim S800000x128 ![0] bcast_S800000_S800000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S800000x128, .f32⟩) (broadcastInDim S800000x128 ![] bcast_S_S800000x128),
    StableHlo.TRef.ternary (.of main_call1_v14 : StableHlo.TRef sig ⟨S800000x128, .i1⟩) (.of main_call1_v13 : StableHlo.TRef sig ⟨S800000x128, .f32⟩) (.of main_call1_v15 : StableHlo.TRef sig ⟨S800000x128, .f32⟩) (.of main_v5 : StableHlo.TRef sig ⟨S800000x128, .f32⟩) select ] : List (HloOp τ sig (Elt F))) = takeOps1 red := rfl

/-- The row reduction of the in-bounds test: "and" along the one-column axis, from 1. -/
abbrev rowAnd : (⟨S800000x1, .i1⟩ : BufTy).Contents (Elt F) → (⟨S_, .i1⟩ : BufTy).Contents (Elt F) → (⟨S800000, .i1⟩ : BufTy).Contents (Elt F) :=
  fun x v => Host.reduce IntOp.andi x v reducesTo_S800000x1_S800000_d1 h_S_

theorem hostOps0_1_eq : (Gen.hostOps0_1 : List (HloOp τ sig (Elt F))) = takeOps0 rowAnd := typed0 rowAnd

theorem hostOps0_2_eq : (Gen.hostOps0_2 : List (HloOp τ sig (Elt F))) = takeOps1 rowAnd := typed1 rowAnd

end Take

/-! ## Inside the table a take is the gather -/

theorem ofBool_eq_one (b : Bool) : BitVec.ofBool b = 1#1 ↔ b = true := by cases b <;> decide

/-- A signed word in [0, 50000) is not negative and is at most 49999. -/
theorem word_in_table (w : BitVec 32) (h0 : IntOp.cmpi .sge w 0#32 = 1#1) (h1 : IntOp.cmpi .slt w 50000#32 = 1#1) :
    IntOp.cmpi .slt w 0#32 = 0#1 ∧ IntOp.cmpi .sle w 49999#32 = 1#1 := by
  unfold IntOp.cmpi at h0 h1 ⊢
  rw [ofBool_eq_one] at h0 h1
  simp only [BitVec.slt, BitVec.sle, decide_eq_true_eq] at h0 h1
  have z0 : (0#32 : BitVec 32).toInt = 0 := by decide
  have z1 : (50000#32 : BitVec 32).toInt = 50000 := by decide
  have z2 : (49999#32 : BitVec 32).toInt = 49999 := by decide
  rw [z0] at h0; rw [z1] at h1
  constructor
  · have : w.slt 0#32 = false := by
      simp only [BitVec.slt, z0, decide_eq_false_iff_not]; omega
    simp only [this]; rfl
  · have : w.sle 49999#32 = true := by
      simp only [BitVec.sle, z2, decide_eq_true_eq]; omega
    simp only [this]; rfl

/-- A fold by "and" that starts at 1 and meets only 1s is 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hf =>
    foldl_andi_ones f l _ (by show IntOp.andi init (f a) = 1#1; rw [h, hf a List.mem_cons_self]; decide)
      (fun n hn => hf n (List.mem_cons_of_mem _ hn))

/-- Where every index is in [0, 50000), every edge's in-bounds test is 1: the normalised index is the index itself. -/
theorem inBounds_eq_one (idx : IVec S800000 32)
    (h : ∀ k, IntOp.cmpi .sge (idx k) 0#32 = 1#1 ∧ IntOp.cmpi .slt (idx k) 50000#32 = 1#1) (e : S800000.Idx) :
    inBounds idx e = 1#1 := by
  unfold inBounds
  rw [Host.reduce_eq_foldl]
  refine foldl_andi_ones _ _ _ rfl (fun i _ => ?_)
  obtain ⟨k, hk⟩ : ∃ k, idxCol idx i
      = Scalar.select (IntOp.cmpi .slt (idx k) 0#32) (IntOp.addi (idx k) 50000#32) (idx k) := ⟨_, rfl⟩
  show IntOp.andi (IntOp.cmpi .sge (idxCol idx i) 0#32) (IntOp.cmpi .sle (idxCol idx i) 49999#32) = 1#1
  obtain ⟨a, b⟩ := word_in_table (idx k) (h k).1 (h k).2
  rw [hk, a, ValueIdx.select_zero, (h k).1, b]
  decide

/-- Where every index is in [0, 50000), the take is the plain gather at the normalised indices. -/
theorem takeRows_eq_gather {F : FTy → Type} [FloatOps F] (x : FVec F S50000x128 .f32) (idx : IVec S800000 32)
    (h : ∀ k, IntOp.cmpi .sge (idx k) 0#32 = 1#1 ∧ IntOp.cmpi .slt (idx k) 50000#32 = 1#1) :
    takeRows x idx = Host.gather gather_S50000x128_S800000x1_S800000x128_1_0_n_n_0_1_1128 x (idxCol idx) := by
  funext i
  unfold takeRows
  rw [ValueIdx.select_apply]
  have hm : broadcastInDim S800000x128 ![0] bcast_S800000_S800000x128_0 (inBounds idx) i = 1#1 :=
    inBounds_eq_one idx h _
  rw [hm, ValueIdx.select_one]

/-- Each entry of an index row is an entry of the index array. -/
theorem startIdx_mem (a1 : IVec S2x800000 32) (k : S800000.Idx) : ∃ i, startIdx a1 k = a1 i := ⟨_, rfl⟩
theorem endIdx_mem (a1 : IVec S2x800000 32) (k : S800000.Idx) : ∃ i, endIdx a1 k = a1 i := ⟨_, rfl⟩

variable (m : (ℓ : Loc nD τ sig) → Buf (Elt Ideal) ℓ) (ρ : Dev nD → PrngReg)

/-! ## The edge region's entry contents

Each buffer is read back through the four host stretches before the region: the stretch that wrote it gives its
value from the buffers it read, the others leave it alone. -/

/-- Reads one buffer back through the four stretches before the edge region. -/
local macro "read_entry0" : tactic =>
  `(tactic| (dsimp only [Gen.W4, Gen.W3, Gen.W2, Gen.W1]
             rw [hostOps0_1_eq, hostOps0_2_eq]
             simp only [Gen.hostOps0_3, takeOps1, takeOps0, rowAnd, Gen.hostOps0]
             after_results_simp <;> rfl))

set_option maxHeartbeats 8000000 in
theorem entry0_v1 (c : Dev nD) :
    Gen.W4 m ρ c (Proc.devRef .tc main_v1) = startIdx (m ((c.tc : Thread nD τ).loc main_arg1)) := by
  unfold startIdx
  read_entry0

set_option maxHeartbeats 8000000 in
theorem entry0_v4 (c : Dev nD) :
    Gen.W4 m ρ c (Proc.devRef .tc main_v4) = takeRows (F := Ideal) (m ((c.tc : Thread nD τ).loc main_arg0)) (startIdx (m ((c.tc : Thread nD τ).loc main_arg1))) := by
  unfold takeRows inBounds idxCol normIdx startIdx
  read_entry0

set_option maxHeartbeats 8000000 in
theorem entry0_v5 (c : Dev nD) :
    Gen.W4 m ρ c (Proc.devRef .tc main_v5) = takeRows (F := Ideal) (m ((c.tc : Thread nD τ).loc main_arg0)) (endIdx (m ((c.tc : Thread nD τ).loc main_arg1))) := by
  unfold takeRows inBounds idxCol normIdx endIdx
  read_entry0

set_option maxHeartbeats 8000000 in
theorem entry0_arg2 (c : Dev nD) :
    Gen.W4 m ρ c (Proc.devRef .tc main_arg2) = m ((c.tc : Thread nD τ).loc main_arg2) := by
  read_entry0

set_option maxHeartbeats 8000000 in
theorem entry0_v6 (c : Dev nD) :
    Gen.W4 m ρ c (Proc.devRef .tc main_v6) = extractStridedSlice S128x128 ![0, 0] (m ((c.tc : Thread nD τ).loc main_arg3)) slices_S272x128_S128x128_0_0 := by
  read_entry0

set_option maxHeartbeats 8000000 in
theorem entry0_v7 (c : Dev nD) :
    Gen.W4 m ρ c (Proc.devRef .tc main_v7) = extractStridedSlice S128x128 ![128, 0] (m ((c.tc : Thread nD τ).loc main_arg3)) slices_S272x128_S128x128_128_0 := by
  read_entry0

set_option maxHeartbeats 8000000 in
theorem entry0_v8 (c : Dev nD) :
    Gen.W4 m ρ c (Proc.devRef .tc main_v8) = extractStridedSlice S16x128 ![256, 0] (m ((c.tc : Thread nD τ).loc main_arg3)) slices_S272x128_S16x128_256_0 := by
  read_entry0

set_option maxHeartbeats 8000000 in
theorem entry0_v9 (c : Dev nD) :
    Gen.W4 m ρ c (Proc.devRef .tc main_v9) = shapeCast S1x128 (m ((c.tc : Thread nD τ).loc main_arg4)) shapeCasts_S128_S1x128 := by
  read_entry0

set_option maxHeartbeats 8000000 in
theorem entry0_arg5 (c : Dev nD) :
    Gen.W4 m ρ c (Proc.devRef .tc main_arg5) = m ((c.tc : Thread nD τ).loc main_arg5) := by
  read_entry0

set_option maxHeartbeats 8000000 in
theorem entry0_v10 (c : Dev nD) :
    Gen.W4 m ρ c (Proc.devRef .tc main_v10) = shapeCast S1x128 (m ((c.tc : Thread nD τ).loc main_arg6)) shapeCasts_S128_S1x128 := by
  read_entry0

set_option maxHeartbeats 8000000 in
theorem entry0_arg7 (c : Dev nD) :
    Gen.W4 m ρ c (Proc.devRef .tc main_arg7) = m ((c.tc : Thread nD τ).loc main_arg7) := by
  read_entry0

set_option maxHeartbeats 8000000 in
theorem entry0_v11 (c : Dev nD) :
    Gen.W4 m ρ c (Proc.devRef .tc main_v11) = shapeCast S1x1 (m ((c.tc : Thread nD τ).loc main_arg8)) shapeCasts_S1_S1x1 := by
  read_entry0

set_option maxHeartbeats 8000000 in
theorem entry0_arg0 (c : Dev nD) :
    Gen.W4 m ρ c (Proc.devRef .tc main_arg0) = m ((c.tc : Thread nD τ).loc main_arg0) := by
  read_entry0

set_option maxHeartbeats 8000000 in
theorem entry0_arg9 (c : Dev nD) :
    Gen.W4 m ρ c (Proc.devRef .tc main_arg9) = m ((c.tc : Thread nD τ).loc main_arg9) := by
  read_entry0

set_option maxHeartbeats 8000000 in
theorem entry0_arg10 (c : Dev nD) :
    Gen.W4 m ρ c (Proc.devRef .tc main_arg10) = m ((c.tc : Thread nD τ).loc main_arg10) := by
  read_entry0

set_option maxHeartbeats 8000000 in
theorem entry0_arg11 (c : Dev nD) :
    Gen.W4 m ρ c (Proc.devRef .tc main_arg11) = m ((c.tc : Thread nD τ).loc main_arg11) := by
  read_entry0

set_option maxHeartbeats 8000000 in
theorem entry0_arg12 (c : Dev nD) :
    Gen.W4 m ρ c (Proc.devRef .tc main_arg12) = m ((c.tc : Thread nD τ).loc main_arg12) := by
  read_entry0

/-! ## The node region's entry contents, from the edge region's exit contents -/

set_option maxHeartbeats 8000000 in
theorem entry1_arg0 (c : Dev nD) :
    Gen.W6 m ρ c (Proc.devRef .tc main_arg0) = Gen.W5 m ρ c (Proc.devRef .tc main_arg0) := by
  dsimp only [Gen.W6]
  simp only [Gen.hostOps1]
  after_results_simp <;> rfl

set_option maxHeartbeats 8000000 in
theorem entry1_v15 (c : Dev nD) :
    Gen.W6 m ρ c (Proc.devRef .tc main_v15) = Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (Gen.W5 m ρ c (Proc.devRef .tc main_v1))) (Gen.W5 m ρ c (Proc.devRef .tc main_v12)) := by
  dsimp only [Gen.W6]
  simp only [Gen.hostOps1]
  after_results_simp <;> rfl

set_option maxHeartbeats 8000000 in
theorem entry1_v16 (c : Dev nD) :
    Gen.W6 m ρ c (Proc.devRef .tc main_v16) = extractStridedSlice S128x128 ![0, 0] (Gen.W5 m ρ c (Proc.devRef .tc main_arg9)) slices_S256x128_S128x128_0_0 := by
  dsimp only [Gen.W6]
  simp only [Gen.hostOps1]
  after_results_simp <;> rfl

set_option maxHeartbeats 8000000 in
theorem entry1_v17 (c : Dev nD) :
    Gen.W6 m ρ c (Proc.devRef .tc main_v17) = extractStridedSlice S128x128 ![128, 0] (Gen.W5 m ρ c (Proc.devRef .tc main_arg9)) slices_S256x128_S128x128_128_0 := by
  dsimp only [Gen.W6]
  simp only [Gen.hostOps1]
  after_results_simp <;> rfl

set_option maxHeartbeats 8000000 in
theorem entry1_v18 (c : Dev nD) :
    Gen.W6 m ρ c (Proc.devRef .tc main_v18) = shapeCast S1x128 (Gen.W5 m ρ c (Proc.devRef .tc main_arg10)) shapeCasts_S128_S1x128 := by
  dsimp only [Gen.W6]
  simp only [Gen.hostOps1]
  after_results_simp <;> rfl

set_option maxHeartbeats 8000000 in
theorem entry1_arg11 (c : Dev nD) :
    Gen.W6 m ρ c (Proc.devRef .tc main_arg11) = Gen.W5 m ρ c (Proc.devRef .tc main_arg11) := by
  dsimp only [Gen.W6]
  simp only [Gen.hostOps1]
  after_results_simp <;> rfl

set_option maxHeartbeats 8000000 in
theorem entry1_v19 (c : Dev nD) :
    Gen.W6 m ρ c (Proc.devRef .tc main_v19) = shapeCast S1x128 (Gen.W5 m ρ c (Proc.devRef .tc main_arg12)) shapeCasts_S128_S1x128 := by
  dsimp only [Gen.W6]
  simp only [Gen.hostOps1]
  after_results_simp <;> rfl

/-- A buffer that is not one of the edge region's arrays leaves the region as it entered. -/
theorem exit0_of_ne (c : Dev nD) (b : Ref sig .tc) (hb : ∀ w, Pipeline.arrRef spec0 w ≠ b) :
    Gen.W5 m ρ c (Proc.devRef .tc b) = Gen.W4 m ρ c (Proc.devRef .tc b) := Gen.W5_of_ne m ρ c b hb

/-- The edge region's output array leaves the region at what its write-backs fold to. -/
theorem exit0_v12 (c : Dev nD) :
    Gen.W5 m ρ c (Proc.devRef .tc main_v12) = (Gen.dat0 (Gen.V4 m ρ) c).arrAt 11 cfg0.N := Gen.W5_arr m ρ c 11

/-- The node region's output array leaves the region at what its write-backs fold to. -/
theorem exit1_v20 (c : Dev nD) :
    Gen.W7 m ρ c (Proc.devRef .tc main_v20) = (Gen.dat1 (Gen.V6 m ρ) c).arrAt 7 cfg1.N := Gen.W7_arr m ρ c 7

end Cert.KernelIdeal.HostValue

end
-- ==== Proof.Spec.lean ====
/-
  The mathematics of one gated message-passing layer, row by row, on the extended reals.

  An edge's message depends on one row of each of three arrays (the source node's features, the target node's
  features, the edge's own features): a first dense layer whose weight matrix is cut into three row blocks, one
  per array, then x * sigmoid x, a second dense layer, and a scalar gate sigmoid (message . w + b) multiplying the
  whole message. A node's update depends on one row of the node features and one row of the aggregated messages:
  a dense layer cut into two row blocks, x * sigmoid x, a second dense layer, and the residual.

  Both are stated for any number of rows, so that a block of rows and the whole array are instances of one
  function; and the two sums-over-blocks lemmas say that a sum over 272 (or 256) terms is the sum of its blocks.
-/
import Idealize.ShloMosaic.PureOps.Ideal
import Idealize.ShloMosaic.Lib.ValueIdx
import Mathlib.Algebra.BigOperators.Fin

noncomputable section

namespace Cert.Graph

open Idealize.ShloMosaic Idealize.ShloMosaic.ValueIdx

/-- x * sigmoid x. -/
def silu (x : EReal) : EReal := x * Ideal.logistic x

/-- One edge's message at column j, from the three rows it reads. -/
def edgeRow (hs he : Fin 128 → EReal) (ef : Fin 16 → EReal)
    (Ws We : Fin 128 → Fin 128 → EReal) (Wf : Fin 16 → Fin 128 → EReal) (b1 : Fin 128 → EReal)
    (W2 : Fin 128 → Fin 128 → EReal) (b2 : Fin 128 → EReal) (wi : Fin 128 → EReal) (bi : EReal)
    (j : Fin 128) : EReal :=
  ((∑ k : Fin 128,
      silu ((((∑ a : Fin 128, hs a * Ws a k) + ∑ a : Fin 128, he a * We a k) + ∑ a : Fin 16, ef a * Wf a k) + b1 k)
        * W2 k j) + b2 j)
    * Ideal.logistic ((∑ q : Fin 128,
        ((∑ k : Fin 128,
          silu ((((∑ a : Fin 128, hs a * Ws a k) + ∑ a : Fin 128, he a * We a k) + ∑ a : Fin 16, ef a * Wf a k) + b1 k)
            * W2 k q) + b2 q) * wi q) + bi)

/-- One node's new features at column j, from its own row and its aggregated row. -/
def nodeRow (nf ag : Fin 128 → EReal) (Wa Wb : Fin 128 → Fin 128 → EReal) (b1 : Fin 128 → EReal)
    (W2 : Fin 128 → Fin 128 → EReal) (b2 : Fin 128 → EReal) (j : Fin 128) : EReal :=
  nf j + ((∑ k : Fin 128,
      silu (((∑ a : Fin 128, nf a * Wa a k) + ∑ a : Fin 128, ag a * Wb a k) + b1 k) * W2 k j) + b2 j)

/-- The messages of R edges: row r of the result from row r of each of the three arrays. -/
def edgeMsg {R : Nat} (hs he : FVec Ideal ⟨2, ![R, 128]⟩ .f32) (ef : FVec Ideal ⟨2, ![R, 16]⟩ .f32)
    (Ws We : FVec Ideal ⟨2, ![128, 128]⟩ .f32) (Wf : FVec Ideal ⟨2, ![16, 128]⟩ .f32)
    (b1 : FVec Ideal ⟨2, ![1, 128]⟩ .f32) (W2 : FVec Ideal ⟨2, ![128, 128]⟩ .f32)
    (b2 : FVec Ideal ⟨2, ![1, 128]⟩ .f32) (wi : FVec Ideal ⟨2, ![128, 1]⟩ .f32)
    (bi : FVec Ideal ⟨2, ![1, 1]⟩ .f32) : FVec Ideal ⟨2, ![R, 128]⟩ .f32 :=
  fun i => edgeRow (fun a => hs (ix2 (i 0) a)) (fun a => he (ix2 (i 0) a)) (fun a => ef (ix2 (i 0) a))
    (fun a k => Ws (ix2 a k)) (fun a k => We (ix2 a k)) (fun a k => Wf (ix2 a k))
    (fun k => b1 (ix2 (0 : Fin 1) k)) (fun k q => W2 (ix2 k q)) (fun q => b2 (ix2 (0 : Fin 1) q))
    (fun q => wi (ix2 q (0 : Fin 1))) (bi (ix2 (0 : Fin 1) (0 : Fin 1))) (i 1)

/-- The new features of R nodes: row r of the result from row r of the features and of the aggregate. -/
def nodeOut {R : Nat} (nf ag : FVec Ideal ⟨2, ![R, 128]⟩ .f32)
    (Wa Wb : FVec Ideal ⟨2, ![128, 128]⟩ .f32) (b1 : FVec Ideal ⟨2, ![1, 128]⟩ .f32)
    (W2 : FVec Ideal ⟨2, ![128, 128]⟩ .f32) (b2 : FVec Ideal ⟨2, ![1, 128]⟩ .f32) :
    FVec Ideal ⟨2, ![R, 128]⟩ .f32 :=
  fun i => nodeRow (fun a => nf (ix2 (i 0) a)) (fun a => ag (ix2 (i 0) a))
    (fun a k => Wa (ix2 a k)) (fun a k => Wb (ix2 a k)) (fun k => b1 (ix2 (0 : Fin 1) k))
    (fun k q => W2 (ix2 k q)) (fun q => b2 (ix2 (0 : Fin 1) q)) (i 1)

/-- Rows o, o+1, ..., o+n-1 of a matrix of N rows, as a matrix of n rows. -/
def rowBlock {N C : Nat} (n o : Nat) (h : o + n ≤ N) (W : FVec Ideal ⟨2, ![N, C]⟩ .f32) :
    FVec Ideal ⟨2, ![n, C]⟩ .f32 :=
  fun i => W (ix2 (⟨o + (i 0).val, by have h0 : (i 0).val < n := (i 0).isLt; omega⟩ : Fin N) (i 1))

/-- A vector of n entries as a matrix of one row. -/
def asRow {n : Nat} (b : FVec Ideal ⟨1, ![n]⟩ .f32) : FVec Ideal ⟨2, ![1, n]⟩ .f32 :=
  fun i => b (ix1 (i 1))

/-- A sum over 272 = 128 + 128 + 16 terms is the sum of its three blocks. -/
theorem sum_272 {M : Type*} [AddCommMonoid M] (f : Fin 272 → M) :
    ∑ a : Fin 272, f a
      = ((∑ a : Fin 128, f ⟨a.val, by omega⟩) + ∑ a : Fin 128, f ⟨128 + a.val, by omega⟩)
        + ∑ a : Fin 16, f ⟨256 + a.val, by omega⟩ := by
  have e1 := Fin.sum_univ_add (a := 256) (b := 16) f
  have e2 := Fin.sum_univ_add (a := 128) (b := 128) (fun i : Fin 256 => f (Fin.castAdd 16 i))
  rw [e1, e2]
  rfl

/-- A sum over 256 = 128 + 128 terms is the sum of its two blocks. -/
theorem sum_256 {M : Type*} [AddCommMonoid M] (f : Fin 256 → M) :
    ∑ a : Fin 256, f a = (∑ a : Fin 128, f ⟨a.val, by omega⟩) + ∑ a : Fin 128, f ⟨128 + a.val, by omega⟩ := by
  rw [Fin.sum_univ_add (a := 128) (b := 128) f]
  rfl

end Cert.Graph

end
-- ==== Proof.EdgePayload.lean ====
/-
  The edge kernel's arithmetic on one block of 1600 edges, read entry by entry: the body's result at row p and
  column q is the message of the block's p-th edge at column q. The three products are read as sums over the
  contracted axis, the broadcasts as the entry they repeat, and everything else entry by entry.
-/
import proofs.«400389_j50792283242910_1_alg».proof.Proof.Gen.KernelIdeal.Skeleton
import proofs.«400389_j50792283242910_1_alg».proof.Proof.Spec
import Idealize.ShloMosaic.Lib.Pipeline.Value
import Idealize.ShloMosaic.Lib.ValueIdx
import Idealize.ShloMosaic.PureOps.Ideal.Laws

noncomputable section

namespace Cert.KernelIdeal.EdgePayload

open Cert.KernelIdeal Cert.KernelIdeal.Gen Idealize.ShloMosaic Idealize.ShloMosaic.TcCoe Idealize.ShloMosaic.ValueIdx
open Idealize.SL.Sem

/-! ## The three products read at an index

Each of the body's products contracts the second axis of its left factor with the first of its right one, so its
entry at row p and column q is the sum over k of left (p, k) times right (k, q). -/

theorem lhsA_0 (i : S1600x128.Idx) (q : dot_S1600x128_S128x128_S1600x128_1_0_0_1_n_n.contr.Idx) :
    (dot_S1600x128_S128x128_S1600x128_1_0_0_1_n_n.lhsIdx i q 0).val = (i 0).val := by
  unfold DotDims.lhsIdx
  rw [dif_neg (show ¬(0 : Fin S1600x128.rank) ∈ dot_S1600x128_S128x128_S1600x128_1_0_0_1_n_n.lhsBatch by decide), dif_pos (show (0 : Fin S1600x128.rank) ∈ dot_S1600x128_S128x128_S1600x128_1_0_0_1_n_n.lhsNonContracting by decide)]
  rfl
theorem lhsA_1 (i : S1600x128.Idx) (q : dot_S1600x128_S128x128_S1600x128_1_0_0_1_n_n.contr.Idx) :
    (dot_S1600x128_S128x128_S1600x128_1_0_0_1_n_n.lhsIdx i q 1).val = (q ⟨0, by decide⟩).val :=
  dot_S1600x128_S128x128_S1600x128_1_0_0_1_n_n.lhsIdx_val_of_single rfl i q
theorem rhsA_0 (i : S1600x128.Idx) (q : dot_S1600x128_S128x128_S1600x128_1_0_0_1_n_n.contr.Idx) :
    (dot_S1600x128_S128x128_S1600x128_1_0_0_1_n_n.rhsIdx i q 0).val = (q ⟨0, by decide⟩).val :=
  dot_S1600x128_S128x128_S1600x128_1_0_0_1_n_n.rhsIdx_val_of_single rfl i q
theorem rhsA_1 (i : S1600x128.Idx) (q : dot_S1600x128_S128x128_S1600x128_1_0_0_1_n_n.contr.Idx) :
    (dot_S1600x128_S128x128_S1600x128_1_0_0_1_n_n.rhsIdx i q 1).val = (i 1).val := by
  unfold DotDims.rhsIdx
  rw [dif_neg (show ¬(1 : Fin S128x128.rank) ∈ dot_S1600x128_S128x128_S1600x128_1_0_0_1_n_n.rhsBatch by decide), dif_pos (show (1 : Fin S128x128.rank) ∈ dot_S1600x128_S128x128_S1600x128_1_0_0_1_n_n.rhsNonContracting by decide)]
  rfl

theorem lhsB_0 (i : S1600x128.Idx) (q : dot_S1600x16_S16x128_S1600x128_1_0_0_1_n_n.contr.Idx) :
    (dot_S1600x16_S16x128_S1600x128_1_0_0_1_n_n.lhsIdx i q 0).val = (i 0).val := by
  unfold DotDims.lhsIdx
  rw [dif_neg (show ¬(0 : Fin S1600x16.rank) ∈ dot_S1600x16_S16x128_S1600x128_1_0_0_1_n_n.lhsBatch by decide), dif_pos (show (0 : Fin S1600x16.rank) ∈ dot_S1600x16_S16x128_S1600x128_1_0_0_1_n_n.lhsNonContracting by decide)]
  rfl
theorem lhsB_1 (i : S1600x128.Idx) (q : dot_S1600x16_S16x128_S1600x128_1_0_0_1_n_n.contr.Idx) :
    (dot_S1600x16_S16x128_S1600x128_1_0_0_1_n_n.lhsIdx i q 1).val = (q ⟨0, by decide⟩).val :=
  dot_S1600x16_S16x128_S1600x128_1_0_0_1_n_n.lhsIdx_val_of_single rfl i q
theorem rhsB_0 (i : S1600x128.Idx) (q : dot_S1600x16_S16x128_S1600x128_1_0_0_1_n_n.contr.Idx) :
    (dot_S1600x16_S16x128_S1600x128_1_0_0_1_n_n.rhsIdx i q 0).val = (q ⟨0, by decide⟩).val :=
  dot_S1600x16_S16x128_S1600x128_1_0_0_1_n_n.rhsIdx_val_of_single rfl i q
theorem rhsB_1 (i : S1600x128.Idx) (q : dot_S1600x16_S16x128_S1600x128_1_0_0_1_n_n.contr.Idx) :
    (dot_S1600x16_S16x128_S1600x128_1_0_0_1_n_n.rhsIdx i q 1).val = (i 1).val := by
  unfold DotDims.rhsIdx
  rw [dif_neg (show ¬(1 : Fin S16x128.rank) ∈ dot_S1600x16_S16x128_S1600x128_1_0_0_1_n_n.rhsBatch by decide), dif_pos (show (1 : Fin S16x128.rank) ∈ dot_S1600x16_S16x128_S1600x128_1_0_0_1_n_n.rhsNonContracting by decide)]
  rfl

theorem lhsC_0 (i : S1600x1.Idx) (q : dot_S1600x128_S128x1_S1600x1_1_0_0_1_n_n.contr.Idx) :
    (dot_S1600x128_S128x1_S1600x1_1_0_0_1_n_n.lhsIdx i q 0).val = (i 0).val := by
  unfold DotDims.lhsIdx
  rw [dif_neg (show ¬(0 : Fin S1600x128.rank) ∈ dot_S1600x128_S128x1_S1600x1_1_0_0_1_n_n.lhsBatch by decide), dif_pos (show (0 : Fin S1600x128.rank) ∈ dot_S1600x128_S128x1_S1600x1_1_0_0_1_n_n.lhsNonContracting by decide)]
  rfl
theorem lhsC_1 (i : S1600x1.Idx) (q : dot_S1600x128_S128x1_S1600x1_1_0_0_1_n_n.contr.Idx) :
    (dot_S1600x128_S128x1_S1600x1_1_0_0_1_n_n.lhsIdx i q 1).val = (q ⟨0, by decide⟩).val :=
  dot_S1600x128_S128x1_S1600x1_1_0_0_1_n_n.lhsIdx_val_of_single rfl i q
theorem rhsC_0 (i : S1600x1.Idx) (q : dot_S1600x128_S128x1_S1600x1_1_0_0_1_n_n.contr.Idx) :
    (dot_S1600x128_S128x1_S1600x1_1_0_0_1_n_n.rhsIdx i q 0).val = (q ⟨0, by decide⟩).val :=
  dot_S1600x128_S128x1_S1600x1_1_0_0_1_n_n.rhsIdx_val_of_single rfl i q
theorem rhsC_1 (i : S1600x1.Idx) (q : dot_S1600x128_S128x1_S1600x1_1_0_0_1_n_n.contr.Idx) :
    (dot_S1600x128_S128x1_S1600x1_1_0_0_1_n_n.rhsIdx i q 1).val = (i 1).val := by
  unfold DotDims.rhsIdx
  rw [dif_neg (show ¬(1 : Fin S128x1.rank) ∈ dot_S1600x128_S128x1_S1600x1_1_0_0_1_n_n.rhsBatch by decide), dif_pos (show (1 : Fin S128x1.rank) ∈ dot_S1600x128_S128x1_S1600x1_1_0_0_1_n_n.rhsNonContracting by decide)]
  rfl

/-- A block of 1600 rows of 128 features times a 128 by 128 matrix, into zero. -/
theorem mmA_apply (A : FVec Ideal S1600x128 .bf16) (B : FVec Ideal S128x128 .bf16) (p : Fin 1600) (q : Fin 128) :
    matmul dot_S1600x128_S128x128_S1600x128_1_0_0_1_n_n none A B (constant (F := Ideal) S1600x128 .f32 0x00000000#32) (ix2 p q)
      = ∑ k : Fin 128, A (ix2 p k) * B (ix2 k q) := by
  simp only [matmul]
  rw [Ideal.matmul_constant_zero_apply, ← Equiv.sum_comp (ValueIdx.contrEquiv1 dot_S1600x128_S128x128_S1600x128_1_0_0_1_n_n 128 rfl rfl).symm]
  refine Finset.sum_congr rfl fun k _ => ?_
  have hk := ValueIdx.contrEquiv1_symm_val dot_S1600x128_S128x128_S1600x128_1_0_0_1_n_n 128 rfl rfl k
  have el : dot_S1600x128_S128x128_S1600x128_1_0_0_1_n_n.lhsIdx (ix2 p q) ((ValueIdx.contrEquiv1 dot_S1600x128_S128x128_S1600x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S1600x128_S128x128_S1600x128_1_0_0_1_n_n.rhsIdx (ix2 p q) ((ValueIdx.contrEquiv1 dot_S1600x128_S128x128_S1600x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- A block of 1600 rows of 16 features times a 16 by 128 matrix, into zero. -/
theorem mmB_apply (A : FVec Ideal S1600x16 .bf16) (B : FVec Ideal S16x128 .bf16) (p : Fin 1600) (q : Fin 128) :
    matmul dot_S1600x16_S16x128_S1600x128_1_0_0_1_n_n none A B (constant (F := Ideal) S1600x128 .f32 0x00000000#32) (ix2 p q)
      = ∑ k : Fin 16, A (ix2 p k) * B (ix2 k q) := by
  simp only [matmul]
  rw [Ideal.matmul_constant_zero_apply, ← Equiv.sum_comp (ValueIdx.contrEquiv1 dot_S1600x16_S16x128_S1600x128_1_0_0_1_n_n 16 rfl rfl).symm]
  refine Finset.sum_congr rfl fun k _ => ?_
  have hk := ValueIdx.contrEquiv1_symm_val dot_S1600x16_S16x128_S1600x128_1_0_0_1_n_n 16 rfl rfl k
  have el : dot_S1600x16_S16x128_S1600x128_1_0_0_1_n_n.lhsIdx (ix2 p q) ((ValueIdx.contrEquiv1 dot_S1600x16_S16x128_S1600x128_1_0_0_1_n_n 16 rfl rfl).symm k) = ix2 p k := funext fun a => Fin.ext (by
    match a with
    | ⟨0, _⟩ => exact lhsB_0 _ _
    | ⟨1, _⟩ => exact (lhsB_1 _ _).trans hk)
  have er : dot_S1600x16_S16x128_S1600x128_1_0_0_1_n_n.rhsIdx (ix2 p q) ((ValueIdx.contrEquiv1 dot_S1600x16_S16x128_S1600x128_1_0_0_1_n_n 16 rfl rfl).symm k) = ix2 k q := funext fun a => Fin.ext (by
    match a with
    | ⟨0, _⟩ => exact (rhsB_0 _ _).trans hk
    | ⟨1, _⟩ => exact rhsB_1 _ _)
  rw [el, er]

/-- A block of 1600 rows of 128 features times a column of 128 entries, into zero. -/
theorem mmC_apply (A : FVec Ideal S1600x128 .bf16) (B : FVec Ideal S128x1 .bf16) (p : Fin 1600) (q : Fin 1) :
    matmul dot_S1600x128_S128x1_S1600x1_1_0_0_1_n_n none A B (constant (F := Ideal) S1600x1 .f32 0x00000000#32) (ix2 p q)
      = ∑ k : Fin 128, A (ix2 p k) * B (ix2 k q) := by
  simp only [matmul]
  rw [Ideal.matmul_constant_zero_apply, ← Equiv.sum_comp (ValueIdx.contrEquiv1 dot_S1600x128_S128x1_S1600x1_1_0_0_1_n_n 128 rfl rfl).symm]
  refine Finset.sum_congr rfl fun k _ => ?_
  have hk := ValueIdx.contrEquiv1_symm_val dot_S1600x128_S128x1_S1600x1_1_0_0_1_n_n 128 rfl rfl k
  have el : dot_S1600x128_S128x1_S1600x1_1_0_0_1_n_n.lhsIdx (ix2 p q) ((ValueIdx.contrEquiv1 dot_S1600x128_S128x1_S1600x1_1_0_0_1_n_n 128 rfl rfl).symm k) = ix2 p k := funext fun a => Fin.ext (by
    match a with
    | ⟨0, _⟩ => exact lhsC_0 _ _
    | ⟨1, _⟩ => exact (lhsC_1 _ _).trans hk)
  have er : dot_S1600x128_S128x1_S1600x1_1_0_0_1_n_n.rhsIdx (ix2 p q) ((ValueIdx.contrEquiv1 dot_S1600x128_S128x1_S1600x1_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ## The three broadcasts read at an index -/

/-- A row of 128 entries repeated down 1600 rows. -/
theorem rowBcast_apply (v : FVec Ideal S1x128 .f32) (p : Fin 1600) (q : Fin 128) :
    broadcastTo S1600x128 v broadcasts_S1x128_S1600x128 (ix2 p q) = v (ix2 (0 : Fin 1) q) :=
  broadcastTo_apply v broadcasts_S1x128_S1600x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- One entry repeated down a column of 1600 rows. -/
theorem oneBcast_apply (v : FVec Ideal S1x1 .f32) (p : Fin 1600) (q : Fin 1) :
    broadcastTo S1600x1 v broadcasts_S1x1_S1600x1 (ix2 p q) = v (ix2 (0 : Fin 1) (0 : Fin 1)) :=
  broadcastTo_apply v broadcasts_S1x1_S1600x1 (ix2 p q) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-- A column of 1600 entries repeated across 128 columns. -/
theorem colBcast_apply (v : FVec Ideal S1600x1 .f32) (p : Fin 1600) (q : Fin 128) :
    broadcastTo S1600x128 v broadcasts_S1600x1_S1600x128 (ix2 p q) = v (ix2 p (0 : Fin 1)) :=
  broadcastTo_apply v broadcasts_S1600x1_S1600x128 (ix2 p q) (ix2 p (0 : Fin 1)) (fun a => match a with
    | ⟨0, _⟩ => by show p.val = if (1600 : Nat) = 1 then 0 else p.val; rw [if_neg (by decide)]
    | ⟨1, _⟩ => by show 0 = if (1 : Nat) = 1 then 0 else _; rw [if_pos rfl])

/-! ## The body's arithmetic read at an index -/

/-- The sigmoid of a block is taken entry by entry. -/
theorem logistic_apply {s : Shape} {φ : FTy} (x : FVec Ideal s φ) (i : s.Idx) : logistic x i = Ideal.logistic (x i) := rfl

/-- The message before the gate, at row p and column q of the block: the second dense layer applied to
    x * sigmoid x of the first, whose weight matrix acts on the three rows the edge reads. -/
theorem pay2_apply (x0 x1 : Vec Ideal S1600x128 .f32) (x2 : Vec Ideal S1600x16 .f32) (x3 x4 : Vec Ideal S128x128 .f32)
    (x5 : Vec Ideal S16x128 .f32) (x6 : Vec Ideal S1x128 .f32) (x7 : Vec Ideal S128x128 .f32) (x8 : Vec Ideal S1x128 .f32) (p : Fin 1600) (q : Fin 128) :
    k0_pay2 (F := Ideal) x0 x1 x2 x3 x4 x5 x6 x7 x8 (ix2 p q)
      = (∑ k : Fin 128, Cert.Graph.silu ((((∑ a : Fin 128, x0 (ix2 p a) * x3 (ix2 a k)) + ∑ a : Fin 128, x1 (ix2 p a) * x4 (ix2 a k)) + ∑ a : Fin 16, x2 (ix2 p a) * x5 (ix2 a k)) + x6 (ix2 (0 : Fin 1) k)) * x7 (ix2 k q)) + x8 (ix2 (0 : Fin 1) q) := by
  unfold k0_pay2
  simp only [shapeCast_self]
  rw [addf_apply, rowBcast_apply, mmA_apply]
  refine congrArg (· + x8 (ix2 (0 : Fin 1) q)) (Finset.sum_congr rfl fun k _ => ?_)
  simp only [truncf_apply, mulf_apply, addf_apply, logistic_apply, rowBcast_apply, mmA_apply, mmB_apply]
  rfl

/-- The gated message, at row p and column q of the block, from the message before the gate m (and its copy m'
    that the gate's product reads): m (p, q) times the sigmoid of the row's product with the gate's column, plus
    the gate's bias. -/
theorem pay1_apply (m : FVec Ideal S1600x128 .f32) (m' : FVec Ideal S1600x128 .bf16) (x9 : Vec Ideal S128x1 .f32)
    (x10 : Vec Ideal S1x1 .f32) (p : Fin 1600) (q : Fin 128) :
    k0_pay1 (F := Ideal) m m' x9 x10 (ix2 p q)
      = m (ix2 p q) * Ideal.logistic ((∑ k : Fin 128, m' (ix2 p k) * x9 (ix2 k (0 : Fin 1))) + x10 (ix2 (0 : Fin 1) (0 : Fin 1))) := by
  unfold k0_pay1
  simp only [shapeCast_self]
  simp only [mulf_apply, colBcast_apply, logistic_apply, addf_apply, oneBcast_apply, mmC_apply, truncf_apply]

/-- THE BODY'S RESULT on a block of 1600 edges is the messages of those 1600 edges. -/
theorem pay_eq (x0 x1 : Vec Ideal S1600x128 .f32) (x2 : Vec Ideal S1600x16 .f32) (x3 x4 : Vec Ideal S128x128 .f32)
    (x5 : Vec Ideal S16x128 .f32) (x6 : Vec Ideal S1x128 .f32) (x7 : Vec Ideal S128x128 .f32) (x8 : Vec Ideal S1x128 .f32) (x9 : Vec Ideal S128x1 .f32) (x10 : Vec Ideal S1x1 .f32) :
    k0_pay1 (F := Ideal) (k0_pay2 x0 x1 x2 x3 x4 x5 x6 x7 x8) (k0_pay3 x0 x1 x2 x3 x4 x5 x6 x7 x8) x9 x10
      = Cert.Graph.edgeMsg (R := 1600) x0 x1 x2 x3 x4 x5 x6 x7 x8 x9 x10 := by
  funext i
  obtain ⟨p, q, rfl⟩ : ∃ (p : Fin 1600) (q : Fin 128), i = ix2 p q := ⟨i 0, i 1, eq_ix2 i⟩
  rw [pay1_apply]
  unfold k0_pay3
  simp only [truncf_apply, pay2_apply]
  rfl

end Cert.KernelIdeal.EdgePayload

end
-- ==== Proof.EdgeValue.lean ====
/-
  The edge region's output array, for whatever the TensorCore's buffers hold when the region is entered: the
  messages of all 800000 edges, row e from row e of the three per-edge arrays and the resident weights.

  Grid point t works on edges 1600 t, ..., 1600 t + 1599: its three per-edge blocks are those rows of their arrays,
  the eight resident blocks are their whole arrays, and the body's result on the block is the messages of those
  1600 edges; so what point t writes back is rows 1600 t, ..., 1600 t + 1599 of the messages of all the edges, and
  the 500 points' blocks cover the output array.
-/
import proofs.«400389_j50792283242910_1_alg».proof.Proof.Gen.KernelIdeal.Frame
import proofs.«400389_j50792283242910_1_alg».proof.Proof.Spec
import proofs.«400389_j50792283242910_1_alg».proof.Proof.EdgePayload
import Idealize.ShloMosaic.Lib.Pipeline.Value
import Idealize.ShloMosaic.Lib.ValueIdx
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The two zero offsets of a whole-buffer access. -/
theorem zeros : (![0, 0] : Fin 2 → Nat) = fun _ => 0 := funext fun a => by fin_cases a <;> rfl

/-- The block indices of the twelve windows at each of the 500 grid points: the three per-edge inputs and the output
    are at block row t, column 0; the eight resident windows are at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- The array row of row p of the block at point t. -/
def erow (t : Fin cfg0.N) (p : Fin 1600) : Fin 800000 :=
  ⟨t.val * 1600 + p.val, by have ht : t.val < 500 := t.isLt; have hp := p.isLt; omega⟩

/-- Row p of the block of window 0 at point t is row 1600 t + p of its array. -/
theorem blk0_row (c : Dev nD) (t : Fin cfg0.N) (p : Fin 1600) :
    (fun a : Fin 128 => iblk0 (F := Ideal) V c 0 t (ix2 p a)) = fun a : Fin 128 => V c main_v4 (ix2 (erow t p) a) := by
  funext a
  show V c main_v4 (((cfg0.win 0).blk t).view.emb (ix2 p a)) = V c main_v4 (ix2 (erow t p) a)
  refine congrArg (V c main_v4) (funext fun d => Fin.ext ?_)
  match d with
  | ⟨0, _⟩ =>
    show win0_0.index t (0 : Fin 2) * 1600 + 1 * p.val = t.val * 1600 + p.val
    rw [(idx_facts t).1]; omega
  | ⟨1, _⟩ =>
    show win0_0.index t (1 : Fin 2) * 128 + 1 * a.val = a.val
    rw [(idx_facts t).2.1]; omega

/-- Row p of the block of window 1 at point t is row 1600 t + p of its array. -/
theorem blk1_row (c : Dev nD) (t : Fin cfg0.N) (p : Fin 1600) :
    (fun a : Fin 128 => iblk0 (F := Ideal) V c 1 t (ix2 p a)) = fun a : Fin 128 => V c main_v5 (ix2 (erow t p) a) := by
  funext a
  show V c main_v5 (((cfg0.win 1).blk t).view.emb (ix2 p a)) = V c main_v5 (ix2 (erow t p) a)
  refine congrArg (V c main_v5) (funext fun d => Fin.ext ?_)
  match d with
  | ⟨0, _⟩ =>
    show win0_1.index t (0 : Fin 2) * 1600 + 1 * p.val = t.val * 1600 + p.val
    rw [(idx_facts t).2.2.1]; omega
  | ⟨1, _⟩ =>
    show win0_1.index t (1 : Fin 2) * 128 + 1 * a.val = a.val
    rw [(idx_facts t).2.2.2.1]; omega

/-- Row p of the block of window 2 at point t is row 1600 t + p of its array. -/
theorem blk2_row (c : Dev nD) (t : Fin cfg0.N) (p : Fin 1600) :
    (fun a : Fin 16 => iblk0 (F := Ideal) V c 2 t (ix2 p a)) = fun a : Fin 16 => V c main_arg2 (ix2 (erow t p) a) := by
  funext a
  show V c main_arg2 (((cfg0.win 2).blk t).view.emb (ix2 p a)) = V c main_arg2 (ix2 (erow t p) a)
  refine congrArg (V c main_arg2) (funext fun d => Fin.ext ?_)
  match d with
  | ⟨0, _⟩ =>
    show win0_2.index t (0 : Fin 2) * 1600 + 1 * p.val = t.val * 1600 + p.val
    rw [(idx_facts t).2.2.2.2.1]; omega
  | ⟨1, _⟩ =>
    show win0_2.index t (1 : Fin 2) * 16 + 1 * a.val = a.val
    rw [(idx_facts t).2.2.2.2.2.1]; omega

/-- The block of window 3 is its whole array at every point. -/
theorem blk3_all (c : Dev nD) (t : Fin cfg0.N) (a : Fin 128) (k : Fin 128) :
    iblk0 (F := Ideal) V c 3 t (ix2 a k) = V c main_v6 (ix2 a k) := by
  show V c main_v6 (((cfg0.win 3).blk t).view.emb (ix2 a k)) = V c main_v6 (ix2 a k)
  refine congrArg (V c main_v6) (funext fun d => Fin.ext ?_)
  match d with
  | ⟨0, _⟩ =>
    show win0_3.index t (0 : Fin 2) * 128 + 1 * a.val = a.val
    rw [(idx_facts t).2.2.2.2.2.2.1]; omega
  | ⟨1, _⟩ =>
    show win0_3.index t (1 : Fin 2) * 128 + 1 * k.val = k.val
    rw [(idx_facts t).2.2.2.2.2.2.2.1]; omega

/-- The block of window 4 is its whole array at every point. -/
theorem blk4_all (c : Dev nD) (t : Fin cfg0.N) (a : Fin 128) (k : Fin 128) :
    iblk0 (F := Ideal) V c 4 t (ix2 a k) = V c main_v7 (ix2 a k) := by
  show V c main_v7 (((cfg0.win 4).blk t).view.emb (ix2 a k)) = V c main_v7 (ix2 a k)
  refine congrArg (V c main_v7) (funext fun d => Fin.ext ?_)
  match d with
  | ⟨0, _⟩ =>
    show win0_4.index t (0 : Fin 2) * 128 + 1 * a.val = a.val
    rw [(idx_facts t).2.2.2.2.2.2.2.2.1]; omega
  | ⟨1, _⟩ =>
    show win0_4.index t (1 : Fin 2) * 128 + 1 * k.val = k.val
    rw [(idx_facts t).2.2.2.2.2.2.2.2.2.1]; omega

/-- The block of window 5 is its whole array at every point. -/
theorem blk5_all (c : Dev nD) (t : Fin cfg0.N) (a : Fin 16) (k : Fin 128) :
    iblk0 (F := Ideal) V c 5 t (ix2 a k) = V c main_v8 (ix2 a k) := by
  show V c main_v8 (((cfg0.win 5).blk t).view.emb (ix2 a k)) = V c main_v8 (ix2 a k)
  refine congrArg (V c main_v8) (funext fun d => Fin.ext ?_)
  match d with
  | ⟨0, _⟩ =>
    show win0_5.index t (0 : Fin 2) * 16 + 1 * a.val = a.val
    rw [(idx_facts t).2.2.2.2.2.2.2.2.2.2.1]; omega
  | ⟨1, _⟩ =>
    show win0_5.index t (1 : Fin 2) * 128 + 1 * k.val = k.val
    rw [(idx_facts t).2.2.2.2.2.2.2.2.2.2.2.1]; omega

/-- The block of window 6 is its whole array at every point. -/
theorem blk6_all (c : Dev nD) (t : Fin cfg0.N) (a : Fin 1) (k : Fin 128) :
    iblk0 (F := Ideal) V c 6 t (ix2 a k) = V c main_v9 (ix2 a k) := by
  show V c main_v9 (((cfg0.win 6).blk t).view.emb (ix2 a k)) = V c main_v9 (ix2 a k)
  refine congrArg (V c main_v9) (funext fun d => Fin.ext ?_)
  match d with
  | ⟨0, _⟩ =>
    show win0_6.index t (0 : Fin 2) * 1 + 1 * a.val = a.val
    rw [(idx_facts t).2.2.2.2.2.2.2.2.2.2.2.2.1]; omega
  | ⟨1, _⟩ =>
    show win0_6.index t (1 : Fin 2) * 128 + 1 * k.val = k.val
    rw [(idx_facts t).2.2.2.2.2.2.2.2.2.2.2.2.2.1]; omega

/-- The block of window 7 is its whole array at every point. -/
theorem blk7_all (c : Dev nD) (t : Fin cfg0.N) (a : Fin 128) (k : Fin 128) :
    iblk0 (F := Ideal) V c 7 t (ix2 a k) = V c main_arg5 (ix2 a k) := by
  show V c main_arg5 (((cfg0.win 7).blk t).view.emb (ix2 a k)) = V c main_arg5 (ix2 a k)
  refine congrArg (V c main_arg5) (funext fun d => Fin.ext ?_)
  match d with
  | ⟨0, _⟩ =>
    show win0_7.index t (0 : Fin 2) * 128 + 1 * a.val = a.val
    rw [(idx_facts t).2.2.2.2.2.2.2.2.2.2.2.2.2.2.1]; omega
  | ⟨1, _⟩ =>
    show win0_7.index t (1 : Fin 2) * 128 + 1 * k.val = k.val
    rw [(idx_facts t).2.2.2.2.2.2.2.2.2.2.2.2.2.2.2.1]; omega

/-- The block of window 8 is its whole array at every point. -/
theorem blk8_all (c : Dev nD) (t : Fin cfg0.N) (a : Fin 1) (k : Fin 128) :
    iblk0 (F := Ideal) V c 8 t (ix2 a k) = V c main_v10 (ix2 a k) := by
  show V c main_v10 (((cfg0.win 8).blk t).view.emb (ix2 a k)) = V c main_v10 (ix2 a k)
  refine congrArg (V c main_v10) (funext fun d => Fin.ext ?_)
  match d with
  | ⟨0, _⟩ =>
    show win0_8.index t (0 : Fin 2) * 1 + 1 * a.val = a.val
    rw [(idx_facts t).2.2.2.2.2.2.2.2.2.2.2.2.2.2.2.2.1]; omega
  | ⟨1, _⟩ =>
    show win0_8.index t (1 : Fin 2) * 128 + 1 * k.val = k.val
    rw [(idx_facts t).2.2.2.2.2.2.2.2.2.2.2.2.2.2.2.2.2.1]; omega

/-- The block of window 9 is its whole array at every point. -/
theorem blk9_all (c : Dev nD) (t : Fin cfg0.N) (a : Fin 128) (k : Fin 1) :
    iblk0 (F := Ideal) V c 9 t (ix2 a k) = V c main_arg7 (ix2 a k) := by
  show V c main_arg7 (((cfg0.win 9).blk t).view.emb (ix2 a k)) = V c main_arg7 (ix2 a k)
  refine congrArg (V c main_arg7) (funext fun d => Fin.ext ?_)
  match d with
  | ⟨0, _⟩ =>
    show win0_9.index t (0 : Fin 2) * 128 + 1 * a.val = a.val
    rw [(idx_facts t).2.2.2.2.2.2.2.2.2.2.2.2.2.2.2.2.2.2.1]; omega
  | ⟨1, _⟩ =>
    show win0_9.index t (1 : Fin 2) * 1 + 1 * k.val = k.val
    rw [(idx_facts t).2.2.2.2.2.2.2.2.2.2.2.2.2.2.2.2.2.2.2.1]; omega

/-- The block of window 10 is its whole array at every point. -/
theorem blk10_all (c : Dev nD) (t : Fin cfg0.N) (a : Fin 1) (k : Fin 1) :
    iblk0 (F := Ideal) V c 10 t (ix2 a k) = V c main_v11 (ix2 a k) := by
  show V c main_v11 (((cfg0.win 10).blk t).view.emb (ix2 a k)) = V c main_v11 (ix2 a k)
  refine congrArg (V c main_v11) (funext fun d => Fin.ext ?_)
  match d with
  | ⟨0, _⟩ =>
    show win0_10.index t (0 : Fin 2) * 1 + 1 * a.val = a.val
    rw [(idx_facts t).2.2.2.2.2.2.2.2.2.2.2.2.2.2.2.2.2.2.2.2.1]; omega
  | ⟨1, _⟩ =>
    show win0_10.index t (1 : Fin 2) * 1 + 1 * k.val = k.val
    rw [(idx_facts t).2.2.2.2.2.2.2.2.2.2.2.2.2.2.2.2.2.2.2.2.2.1]; omega

/-- Entry (p, q) of the output's block at point t is entry (1600 t + p, q) of the output array. -/
theorem out_emb (t : Fin cfg0.N) (p : Fin 1600) (q : Fin 128) :
    ((cfg0.win 11).blk t).view.emb (ix2 p q) = ix2 (erow t p) q := by
  funext d; apply Fin.ext
  match d with
  | ⟨0, _⟩ =>
    show win0_11.index t (0 : Fin 2) * 1600 + 1 * p.val = t.val * 1600 + p.val
    rw [(idx_facts t).2.2.2.2.2.2.2.2.2.2.2.2.2.2.2.2.2.2.2.2.2.2.1]; omega
  | ⟨1, _⟩ =>
    show win0_11.index t (1 : Fin 2) * 128 + 1 * q.val = q.val
    rw [(idx_facts t).2.2.2.2.2.2.2.2.2.2.2.2.2.2.2.2.2.2.2.2.2.2.2]; omega

/-- WHAT POINT t WRITES BACK is block t of the messages of all the edges. -/
theorem flushed_eq (c : Dev nD) (t : Fin cfg0.N) :
    (dat0 (F := Ideal) V c).flushed 11 t
      = ((cfg0.win 11).blk t).view.read (Elt Ideal)
          (Cert.Graph.edgeMsg (R := 800000) (V c main_v4) (V c main_v5) (V c main_arg2) (V c main_v6) (V c main_v7) (V c main_v8) (V c main_v9) (V c main_arg5) (V c main_v10) (V c main_arg7) (V c main_v11)) := by
  show (cfg0.win 11).cut (grid0.coords t) ((dat0 (F := Ideal) V c).after 11 t) = _
  rw [after0_11]
  unfold out0_11
  rw [View.canon_unit_zero zeros]
  simp only [View.ld_unit_zero (S := S1600x128) zeros, View.ld_unit_zero (S := S1600x16) zeros,
    View.ld_unit_zero (S := S128x128) zeros, View.ld_unit_zero (S := S16x128) zeros,
    View.ld_unit_zero (S := S1x128) zeros, View.ld_unit_zero (S := S128x1) zeros, View.ld_unit_zero (S := S1x1) zeros]
  rw [Cert.KernelIdeal.EdgePayload.pay_eq (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) (iblk0 (F := Ideal) V c 10 t)]
  funext (y : S1600x128.Idx)
  obtain ⟨p, q, rfl⟩ : ∃ (p : Fin 1600) (q : Fin 128), y = ix2 p q := ⟨y 0, y 1, eq_ix2 y⟩
  show Cert.Graph.edgeMsg (R := 1600) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) (iblk0 (F := Ideal) V c 10 t) (ix2 p q)
    = Cert.Graph.edgeMsg (R := 800000) (V c main_v4) (V c main_v5) (V c main_arg2) (V c main_v6) (V c main_v7) (V c main_v8) (V c main_v9) (V c main_arg5) (V c main_v10) (V c main_arg7) (V c main_v11) (((cfg0.win 11).blk t).view.emb (ix2 p q))
  rw [out_emb]
  show Cert.Graph.edgeRow (fun a : Fin 128 => iblk0 (F := Ideal) V c 0 t (ix2 p a)) (fun a : Fin 128 => iblk0 (F := Ideal) V c 1 t (ix2 p a)) (fun a : Fin 16 => iblk0 (F := Ideal) V c 2 t (ix2 p a))
      (fun (a : Fin 128) (k : Fin 128) => iblk0 (F := Ideal) V c 3 t (ix2 a k)) (fun (a : Fin 128) (k : Fin 128) => iblk0 (F := Ideal) V c 4 t (ix2 a k)) (fun (a : Fin 16) (k : Fin 128) => iblk0 (F := Ideal) V c 5 t (ix2 a k))
      (fun k : Fin 128 => iblk0 (F := Ideal) V c 6 t (ix2 (0 : Fin 1) k)) (fun (k : Fin 128) (q : Fin 128) => iblk0 (F := Ideal) V c 7 t (ix2 k q)) (fun q : Fin 128 => iblk0 (F := Ideal) V c 8 t (ix2 (0 : Fin 1) q))
      (fun q : Fin 128 => iblk0 (F := Ideal) V c 9 t (ix2 q (0 : Fin 1))) (iblk0 (F := Ideal) V c 10 t (ix2 (0 : Fin 1) (0 : Fin 1))) q
    = Cert.Graph.edgeRow (fun a : Fin 128 => V c main_v4 (ix2 (erow t p) a)) (fun a : Fin 128 => V c main_v5 (ix2 (erow t p) a)) (fun a : Fin 16 => V c main_arg2 (ix2 (erow t p) a))
      (fun (a : Fin 128) (k : Fin 128) => V c main_v6 (ix2 a k)) (fun (a : Fin 128) (k : Fin 128) => V c main_v7 (ix2 a k)) (fun (a : Fin 16) (k : Fin 128) => V c main_v8 (ix2 a k))
      (fun k : Fin 128 => V c main_v9 (ix2 (0 : Fin 1) k)) (fun (k : Fin 128) (q : Fin 128) => V c main_arg5 (ix2 k q)) (fun q : Fin 128 => V c main_v10 (ix2 (0 : Fin 1) q))
      (fun q : Fin 128 => V c main_arg7 (ix2 q (0 : Fin 1))) (V c main_v11 (ix2 (0 : Fin 1) (0 : Fin 1))) q
  rw [blk0_row V c t p, blk1_row V c t p, blk2_row V c t p]
  simp only [blk3_all V c t, blk4_all V c t, blk5_all V c t, blk6_all V c t, blk7_all V c t, blk8_all V c t,
    blk9_all V c t, blk10_all V c t]

/-- An index of the output array is in point t's block iff each coordinate is in the block's range on its axis. -/
theorem mem_blk (t : Fin cfg0.N) (i : S800000x128.Idx) :
    i ∈ ((cfg0.win 11).blk t).view.set
      ↔ ∀ a : Fin 2, win0_11.index t a * S1600x128.size a ≤ (i a).val
          ∧ (i a).val < win0_11.index t a * S1600x128.size a + S1600x128.size a := by
  show i ∈ ((View.whole main_v12).slice (win0_11.rect t)).set ↔ _
  rw [View.set_slice_whole, Rect.mem_set_unit]
  exact Iff.rfl

/-- Every row of the output array is written back by one of the 500 points: row r by point r / 1600. -/
theorem cover (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  have ht : (i 0).val / 1600 < 500 := by omega
  refine ⟨⟨(i 0).val / 1600, ht⟩, flush0_11 _, ?_⟩
  rw [mem_blk]
  have e0 : win0_11.index (⟨(i 0).val / 1600, ht⟩ : Fin cfg0.N) (0 : Fin 2) = (i 0).val / 1600 :=
    (idx_facts ⟨(i 0).val / 1600, ht⟩).2.2.2.2.2.2.2.2.2.2.2.2.2.2.2.2.2.2.2.2.2.2.1
  have e1 : win0_11.index (⟨(i 0).val / 1600, ht⟩ : Fin cfg0.N) (1 : Fin 2) = 0 :=
    (idx_facts ⟨(i 0).val / 1600, ht⟩).2.2.2.2.2.2.2.2.2.2.2.2.2.2.2.2.2.2.2.2.2.2.2
  intro a
  match a with
  | ⟨0, _⟩ =>
    show win0_11.index (⟨(i 0).val / 1600, ht⟩ : Fin cfg0.N) (0 : Fin 2) * 1600 ≤ (i 0).val
      ∧ (i 0).val < win0_11.index (⟨(i 0).val / 1600, ht⟩ : Fin cfg0.N) (0 : Fin 2) * 1600 + 1600
    rw [e0]; omega
  | ⟨1, _⟩ =>
    show win0_11.index (⟨(i 0).val / 1600, ht⟩ : Fin cfg0.N) (1 : Fin 2) * 128 ≤ (i 1).val
      ∧ (i 1).val < win0_11.index (⟨(i 0).val / 1600, ht⟩ : Fin cfg0.N) (1 : Fin 2) * 128 + 128
    rw [e1]; omega

/-- After the edge region every row of its output array is that edge's message. -/
theorem arr (c : Dev nD) :
    (dat0 (F := Ideal) V c).arrAt 11 cfg0.N
      = Cert.Graph.edgeMsg (R := 800000) (V c main_v4) (V c main_v5) (V c main_arg2) (V c main_v6) (V c main_v7)
          (V c main_v8) (V c main_v9) (V c main_arg5) (V c main_v10) (V c main_arg7) (V c main_v11) :=
  (dat0 (F := Ideal) V c).arrAt_eq_of_cover 11
    (Cert.Graph.edgeMsg (R := 800000) (V c main_v4) (V c main_v5) (V c main_arg2) (V c main_v6) (V c main_v7) (V c main_v8) (V c main_v9) (V c main_arg5) (V c main_v10) (V c main_arg7) (V c main_v11))
    (fun t _ => flushed_eq V c t) cover

end Cert.KernelIdeal.EdgeValue

end
-- ==== Proof.NodePayload.lean ====
/-
  The node kernel's arithmetic on one block of 5000 rows, read index by index: two block products into the zero
  accumulator added, the first bias broadcast down the rows, x * sigmoid x, a third block product, the second
  bias, and the residual. At row p and column q this is the node update of row p of the two blocks.
-/
import proofs.«400389_j50792283242910_1_alg».proof.Proof.Gen.KernelIdeal.Skeleton
import proofs.«400389_j50792283242910_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.NodePayload

open Cert.KernelIdeal Cert.KernelIdeal.Gen Idealize.ShloMosaic Idealize.ShloMosaic.ValueIdx

/-! ## The block product's operand indices, axis by axis -/

/-- The left operand is read at the output's row … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted position on its second axis. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand is read at the contracted position on its first axis … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator at row p, column q: the sum over the 128 contracted positions. -/
theorem mm_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- A one-row matrix broadcast down 5000 rows reads its one row everywhere. -/
theorem bcast_apply (b : FVec Ideal S1x128 .f32) (p : Fin 5000) (q : Fin 128) :
    broadcastTo S5000x128 b broadcasts_S1x128_S5000x128 (ix2 p q) = b (ix2 (0 : Fin 1) q) := by
  refine broadcastTo_apply b broadcasts_S1x128_S5000x128 (ix2 p q) (ix2 (0 : Fin 1) q) ?_
  intro a
  match a with
  | ⟨0, _⟩ => rfl
  | ⟨1, _⟩ => rfl

/-- The hidden layer before its activation, at row p and hidden unit k. -/
theorem pre_apply (x0 x1 : Vec Ideal S5000x128 .f32) (x2 x3 : Vec Ideal S128x128 .f32) (x4 : Vec Ideal S1x128 .f32)
    (p : Fin 5000) (k : Fin 128) :
    addf (addf
        (matmul dot_S5000x128_S128x128_S5000x128_1_0_0_1_n_n none (truncf FTy.bf16 x0 bitsLt_bf16_f32)
          (truncf FTy.bf16 x2 bitsLt_bf16_f32) (constant (F := Ideal) S5000x128 FTy.f32 0x00000000#32))
        (matmul dot_S5000x128_S128x128_S5000x128_1_0_0_1_n_n none (truncf FTy.bf16 x1 bitsLt_bf16_f32)
          (truncf FTy.bf16 x3 bitsLt_bf16_f32) (constant (F := Ideal) S5000x128 FTy.f32 0x00000000#32)))
      (broadcastTo S5000x128 x4 broadcasts_S1x128_S5000x128) (ix2 p k)
      = ((∑ a : Fin 128, x0 (ix2 p a) * x2 (ix2 a k)) + ∑ a : Fin 128, x1 (ix2 p a) * x3 (ix2 a k))
          + x4 (ix2 (0 : Fin 1) k) := by
  rw [addf_apply, addf_apply, mm_apply, mm_apply, bcast_apply]
  simp only [truncf_apply]

/-- The body's arithmetic on a block of 5000 rows is the node update of those rows. -/
theorem pay_eq (x0 x1 : Vec Ideal S5000x128 .f32) (x2 x3 : Vec Ideal S128x128 .f32) (x4 : Vec Ideal S1x128 .f32)
    (x5 : Vec Ideal S128x128 .f32) (x6 : Vec Ideal S1x128 .f32) :
    k1_pay1 (F := Ideal) x0 x1 x2 x3 x4 x5 x6 = Cert.Graph.nodeOut (R := 5000) x0 x1 x2 x3 x4 x5 x6 := by
  funext i
  obtain ⟨p, q, rfl⟩ : ∃ (p : Fin 5000) (q : Fin 128), i = ix2 p q := ⟨i 0, i 1, eq_ix2 i⟩
  unfold k1_pay1
  simp only [shapeCast_self]
  rw [addf_apply, addf_apply, bcast_apply, mm_apply]
  show _ = x0 (ix2 p q) + ((∑ k : Fin 128,
      Cert.Graph.silu (((∑ a : Fin 128, x0 (ix2 p a) * x2 (ix2 a k)) + ∑ a : Fin 128, x1 (ix2 p a) * x3 (ix2 a k))
        + x4 (ix2 (0 : Fin 1) k)) * x5 (ix2 k q)) + x6 (ix2 (0 : Fin 1) q))
  refine congrArg (fun z => x0 (ix2 p q) + (z + x6 (ix2 (0 : Fin 1) q))) ?_
  refine Finset.sum_congr rfl fun k _ => ?_
  rw [truncf_apply, truncf_apply, mulf_apply]
  show _ * FloatOps.logistic _ * _ = _
  rw [pre_apply, Ideal.logistic_def]
  rfl

end Cert.KernelIdeal.NodePayload

end
-- ==== Proof.NodeValue.lean ====
/-
  The node region's output array, for whatever the TensorCore's buffers hold when the region is entered: the new
  features of all 50000 nodes, row n from row n of the node features and of the aggregated messages.
-/
import proofs.«400389_j50792283242910_1_alg».proof.Proof.Gen.KernelIdeal.Frame
import proofs.«400389_j50792283242910_1_alg».proof.Proof.Spec
import proofs.«400389_j50792283242910_1_alg».proof.Proof.NodePayload
import Idealize.ShloMosaic.Lib.Pipeline.Value
import Idealize.ShloMosaic.Lib.ValueIdx
import Idealize.ShloMosaic.PureOps.Ideal.Laws

set_option maxRecDepth 16384

noncomputable section

namespace Cert.KernelIdeal.NodeValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The node update at an index depends only on that index's row of the features and of the aggregate, on the
    weights, and on the column. -/
theorem nodeOut_congr {R R' : Nat} (nf ag : FVec Ideal ⟨2, ![R, 128]⟩ .f32) (nf' ag' : FVec Ideal ⟨2, ![R', 128]⟩ .f32)
    (Wa Wb Wa' Wb' : FVec Ideal ⟨2, ![128, 128]⟩ .f32) (b1 b1' : FVec Ideal ⟨2, ![1, 128]⟩ .f32)
    (W2 W2' : FVec Ideal ⟨2, ![128, 128]⟩ .f32) (b2 b2' : FVec Ideal ⟨2, ![1, 128]⟩ .f32)
    (i : (⟨2, ![R, 128]⟩ : Shape).Idx) (i' : (⟨2, ![R', 128]⟩ : Shape).Idx)
    (h0 : ∀ a : Fin 128, nf (ix2 (i 0) a) = nf' (ix2 (i' 0) a))
    (h1 : ∀ a : Fin 128, ag (ix2 (i 0) a) = ag' (ix2 (i' 0) a))
    (h2 : ∀ a k : Fin 128, Wa (ix2 a k) = Wa' (ix2 a k))
    (h3 : ∀ a k : Fin 128, Wb (ix2 a k) = Wb' (ix2 a k))
    (h4 : ∀ k : Fin 128, b1 (ix2 (0 : Fin 1) k) = b1' (ix2 (0 : Fin 1) k))
    (h5 : ∀ k q : Fin 128, W2 (ix2 k q) = W2' (ix2 k q))
    (h6 : ∀ q : Fin 128, b2 (ix2 (0 : Fin 1) q) = b2' (ix2 (0 : Fin 1) q))
    (h7 : i 1 = i' 1) :
    Cert.Graph.nodeOut nf ag Wa Wb b1 W2 b2 i = Cert.Graph.nodeOut nf' ag' Wa' Wb' b1' W2' b2' i' := by
  unfold Cert.Graph.nodeOut
  rw [h7]
  simp only [h0, h1, h2, h3, h4, h5, h6]

variable (V : (c : Dev nD) → (b : Ref sig .tc) → Buf (Elt Ideal) ((c : Thread nD τ).loc b))

/-- The accesses' offsets are zero on both axes. -/
theorem hz : (![0, 0] : Fin 2 → Nat) = fun _ => 0 := funext fun a => by fin_cases a <;> rfl

/-- The printed index maps, decided over the grid: the two moving inputs and the output are on block row t, the
    weights and biases on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Where a block's element sits in its array -/

/-- Row y of point t's block of the node features is the array's row under row y of the output's block. -/
theorem emb0 (t : Fin cfg1.N) (y : ((cfg1.win 7).xblock (cfg1.grid.coords t)).Idx) (a : Fin 128) :
    ((cfg1.win 0).blk t).view.emb (ix2 (y 0) a) = ix2 ((((cfg1.win 7).blk t).view.emb y) 0) a := by
  obtain ⟨e00, e01, -, -, -, -, -, -, -, -, -, -, -, -, e70, -⟩ := idx_facts t
  funext d; apply Fin.ext
  match d with
  | ⟨0, _⟩ => show win1_0.index t (0 : Fin 2) * 5000 + 1 * (y 0).val = win1_7.index t (0 : Fin 2) * 5000 + 1 * (y 0).val; omega
  | ⟨1, _⟩ => show win1_0.index t (1 : Fin 2) * 128 + 1 * a.val = a.val; omega

/-- The same for the aggregated messages. -/
theorem emb1 (t : Fin cfg1.N) (y : ((cfg1.win 7).xblock (cfg1.grid.coords t)).Idx) (a : Fin 128) :
    ((cfg1.win 1).blk t).view.emb (ix2 (y 0) a) = ix2 ((((cfg1.win 7).blk t).view.emb y) 0) a := by
  obtain ⟨-, -, e10, e11, -, -, -, -, -, -, -, -, -, -, e70, -⟩ := idx_facts t
  funext d; apply Fin.ext
  match d with
  | ⟨0, _⟩ => show win1_1.index t (0 : Fin 2) * 5000 + 1 * (y 0).val = win1_7.index t (0 : Fin 2) * 5000 + 1 * (y 0).val; omega
  | ⟨1, _⟩ => show win1_1.index t (1 : Fin 2) * 128 + 1 * a.val = a.val; omega

/-- The first weight matrix's one block is the whole matrix. -/
theorem emb2 (t : Fin cfg1.N) (a k : Fin 128) : ((cfg1.win 2).blk t).view.emb (ix2 a k) = ix2 a k := by
  obtain ⟨-, -, -, -, e20, e21, -, -, -, -, -, -, -, -, -, -⟩ := idx_facts t
  funext d; apply Fin.ext
  match d with
  | ⟨0, _⟩ => show win1_2.index t (0 : Fin 2) * 128 + 1 * a.val = a.val; omega
  | ⟨1, _⟩ => show win1_2.index t (1 : Fin 2) * 128 + 1 * k.val = k.val; omega

/-- The second weight matrix's one block is the whole matrix. -/
theorem emb3 (t : Fin cfg1.N) (a k : Fin 128) : ((cfg1.win 3).blk t).view.emb (ix2 a k) = ix2 a k := by
  obtain ⟨-, -, -, -, -, -, e30, e31, -, -, -, -, -, -, -, -⟩ := idx_facts t
  funext d; apply Fin.ext
  match d with
  | ⟨0, _⟩ => show win1_3.index t (0 : Fin 2) * 128 + 1 * a.val = a.val; omega
  | ⟨1, _⟩ => show win1_3.index t (1 : Fin 2) * 128 + 1 * k.val = k.val; omega

/-- The first bias's one block is the whole row. -/
theorem emb4 (t : Fin cfg1.N) (k : Fin 128) : ((cfg1.win 4).blk t).view.emb (ix2 (0 : Fin 1) k) = ix2 (0 : Fin 1) k := by
  obtain ⟨-, -, -, -, -, -, -, -, e40, e41, -, -, -, -, -, -⟩ := idx_facts t
  funext d; apply Fin.ext
  match d with
  | ⟨0, _⟩ => show win1_4.index t (0 : Fin 2) * 1 + 1 * 0 = 0; omega
  | ⟨1, _⟩ => show win1_4.index t (1 : Fin 2) * 128 + 1 * k.val = k.val; omega

/-- The third weight matrix's one block is the whole matrix. -/
theorem emb5 (t : Fin cfg1.N) (a k : Fin 128) : ((cfg1.win 5).blk t).view.emb (ix2 a k) = ix2 a k := by
  obtain ⟨-, -, -, -, -, -, -, -, -, -, e50, e51, -, -, -, -⟩ := idx_facts t
  funext d; apply Fin.ext
  match d with
  | ⟨0, _⟩ => show win1_5.index t (0 : Fin 2) * 128 + 1 * a.val = a.val; omega
  | ⟨1, _⟩ => show win1_5.index t (1 : Fin 2) * 128 + 1 * k.val = k.val; omega

/-- The second bias's one block is the whole row. -/
theorem emb6 (t : Fin cfg1.N) (k : Fin 128) : ((cfg1.win 6).blk t).view.emb (ix2 (0 : Fin 1) k) = ix2 (0 : Fin 1) k := by
  obtain ⟨-, -, -, -, -, -, -, -, -, -, -, -, e60, e61, -, -⟩ := idx_facts t
  funext d; apply Fin.ext
  match d with
  | ⟨0, _⟩ => show win1_6.index t (0 : Fin 2) * 1 + 1 * 0 = 0; omega
  | ⟨1, _⟩ => show win1_6.index t (1 : Fin 2) * 128 + 1 * k.val = k.val; omega

/-- The output's block keeps the column. -/
theorem emb7 (t : Fin cfg1.N) (y : ((cfg1.win 7).xblock (cfg1.grid.coords t)).Idx) :
    (((cfg1.win 7).blk t).view.emb y) 1 = y 1 := by
  obtain ⟨-, -, -, -, -, -, -, -, -, -, -, -, -, -, -, e71⟩ := idx_facts t
  exact Fin.ext (show win1_7.index t (1 : Fin 2) * 128 + 1 * (y 1).val = (y 1).val by omega)

/-! ## What a point writes back -/

/-- What point t writes back is block t of the node update of the arrays as the region finds them. -/
theorem flushed_eq (c : Dev nD) (t : Fin cfg1.N) :
    (dat1 (F := Ideal) V c).flushed 7 t = ((cfg1.win 7).blk t).view.read (Elt Ideal)
      (Cert.Graph.nodeOut (R := 50000) (V c main_arg0) (V c main_v15) (V c main_v16) (V c main_v17) (V c main_v18)
          (V c main_arg11) (V c main_v19)) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S128x128) hz, View.ld_unit_zero (S := S1x128) hz]
  refine (congrArg ((win1 7).cut (grid1.coords t)) (NodePayload.pay_eq (iblk1 V c 0 t) (iblk1 V c 1 t) (iblk1 V c 2 t) (iblk1 V c 3 t) (iblk1 V c 4 t) (iblk1 V c 5 t) (iblk1 V c 6 t))).trans ?_
  funext y
  generalize hL : Cert.Graph.nodeOut (R := 5000) (iblk1 V c 0 t) (iblk1 V c 1 t) (iblk1 V c 2 t) (iblk1 V c 3 t) (iblk1 V c 4 t) (iblk1 V c 5 t) (iblk1 V c 6 t) = L
  generalize hM : Cert.Graph.nodeOut (R := 50000) (V c main_arg0) (V c main_v15) (V c main_v16) (V c main_v17) (V c main_v18) (V c main_arg11) (V c main_v19) = M
  show L y = M (((cfg1.win 7).blk t).view.emb y)
  subst hL hM
  exact nodeOut_congr (iblk1 V c 0 t) (iblk1 V c 1 t) (V c main_arg0) (V c main_v15) (iblk1 V c 2 t) (iblk1 V c 3 t) (V c main_v16) (V c main_v17)
    (iblk1 V c 4 t) (V c main_v18) (iblk1 V c 5 t) (V c main_arg11) (iblk1 V c 6 t) (V c main_v19) y (((cfg1.win 7).blk t).view.emb y)
    (fun a => congrArg (V c main_arg0) (emb0 t y a))
    (fun a => congrArg (V c main_v15) (emb1 t y a))
    (fun a k => congrArg (V c main_v16) (emb2 t a k))
    (fun a k => congrArg (V c main_v17) (emb3 t a k))
    (fun k => congrArg (V c main_v18) (emb4 t k))
    (fun k q => congrArg (V c main_arg11) (emb5 t k q))
    (fun q => congrArg (V c main_v19) (emb6 t q))
    (emb7 t y).symm

/-! ## The blocks tile the array -/

/-- An index of the array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v20).slice (win1_7.rect t)).set ↔ _
  rw [View.set_slice_whole, Rect.mem_set_unit]
  exact Iff.rfl

/-- Row r of the output is written back by point r / 5000. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := rfl
  have ht : (i 0).val / 5000 < cfg1.N := by rw [hN]; omega
  obtain ⟨-, -, -, -, -, -, -, -, -, -, -, -, -, -, e70, e71⟩ := idx_facts ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e70]
    show (i 0).val / 5000 * 5000 ≤ (i 0).val ∧ (i 0).val < (i 0).val / 5000 * 5000 + 5000
    omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    omega

/-- After the node region every row of its output array is that node's new features. -/
theorem arr (c : Dev nD) :
    (dat1 (F := Ideal) V c).arrAt 7 cfg1.N
      = Cert.Graph.nodeOut (R := 50000) (V c main_arg0) (V c main_v15) (V c main_v16) (V c main_v17) (V c main_v18)
          (V c main_arg11) (V c main_v19) :=
  (dat1 (F := Ideal) V c).arrAt_eq_of_cover 7
    (Cert.Graph.nodeOut (R := 50000) (V c main_arg0) (V c main_v15) (V c main_v16) (V c main_v17) (V c main_v18)
      (V c main_arg11) (V c main_v19))
    (fun t _ => flushed_eq V c t) (fun i => cover i)

end Cert.KernelIdeal.NodeValue

end
-- ==== Proof.SpecLayout.lean ====
/-
  The layer's weight blocks and bias rows as the host operations spell them: a unit-stride slice of whole rows of a
  matrix is a block of its rows, and a vector reshaped to one row is that row.
-/
import proofs.«400389_j50792283242910_1_alg».proof.Proof.Spec
import Idealize.ShloMosaic.Lib.Pipeline.Value
import Idealize.ShloMosaic.Lib.ValueIdx

noncomputable section

namespace Cert.Graph

open Idealize.ShloMosaic Idealize.ShloMosaic.ValueIdx

/-- Rows o .. o+n-1 sliced out of an N-row matrix, all C columns, are the block of those rows. -/
theorem slice_eq_rowBlock {N C n o : Nat} (ho : o + n ≤ N) (W : FVec Ideal ⟨2, ![N, C]⟩ .f32)
    (h : (⟨2, ![N, C]⟩ : Shape).Slices ![o, 0] ⟨2, ![n, C]⟩) :
    extractStridedSlice ⟨2, ![n, C]⟩ ![o, 0] W h = rowBlock n o ho W := by
  funext i
  unfold rowBlock
  refine extractStridedSlice_apply ![o, 0] W h i _ (fun a => ?_)
  match a with
  | ⟨0, _⟩ => rfl
  | ⟨1, _⟩ => show (i 1).val = 0 + (i 1).val; omega

/-- A vector of n entries reshaped to a 1 x n matrix is the vector as a row. -/
theorem reshape_eq_asRow {n : Nat} (b : FVec Ideal ⟨1, ![n]⟩ .f32)
    (h : (⟨1, ![n]⟩ : Shape).ShapeCasts ⟨2, ![1, n]⟩) :
    shapeCast ⟨2, ![1, n]⟩ b h = asRow b := by
  funext i
  unfold asRow
  refine shapeCast_apply b h i _ ?_
  rewrite [Shape.rowMajor_val_two, Shape.rowMajor_val_one]
  have h0 : (i 0).val < 1 := (i 0).isLt
  show (i 1).val = (i 0).val * n + (i 1).val
  have : (i 0).val = 0 := by omega
  rw [this]; omega

end Cert.Graph

end
-- ==== Proof.KernelValue.lean ====
/-
  The kernel program's result as one term of the launch memory: the node function of the node features and the
  scattered sum of the edge function's messages, the weights cut into row blocks. It holds where every index word
  is inside the table, because there each take is the plain gather.
-/
import proofs.«400389_j50792283242910_1_alg».proof.Proof.KernelHost
import proofs.«400389_j50792283242910_1_alg».proof.Proof.EdgeValue
import proofs.«400389_j50792283242910_1_alg».proof.Proof.NodeValue
import proofs.«400389_j50792283242910_1_alg».proof.Proof.SpecLayout

set_option maxRecDepth 16384

noncomputable section

namespace Cert.KernelIdeal.Result

open Cert.KernelIdeal Cert.KernelIdeal.Facts₀ Cert.KernelIdeal.HostValue
open Idealize.ShloMosaic Idealize.ShloMosaic.TcCoe Idealize.SL.Sem

/-- Every index word is a signed word in [0, 50000). -/
def InTable (a1 : IVec S2x800000 32) : Prop :=
  ∀ i, IntOp.cmpi .sge (a1 i) 0#32 = 1#1 ∧ IntOp.cmpi .slt (a1 i) 50000#32 = 1#1

/-- The layer as one function of the thirteen argument arrays. -/
def layer (a0 : FVec Ideal S50000x128 .f32) (a1 : IVec S2x800000 32) (a2 : FVec Ideal S800000x16 .f32)
    (a3 : FVec Ideal S272x128 .f32) (a4 : FVec Ideal S128 .f32) (a5 : FVec Ideal S128x128 .f32)
    (a6 : FVec Ideal S128 .f32) (a7 : FVec Ideal S128x1 .f32) (a8 : FVec Ideal S1 .f32)
    (a9 : FVec Ideal S256x128 .f32) (a10 : FVec Ideal S128 .f32) (a11 : FVec Ideal S128x128 .f32)
    (a12 : FVec Ideal S128 .f32) : FVec Ideal S50000x128 .f32 :=
  Cert.Graph.nodeOut (R := 50000) a0
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (startIdx a1))
      (Cert.Graph.edgeMsg (R := 800000)
        (Host.gather gather_S50000x128_S800000x1_S800000x128_1_0_n_n_0_1_1128 a0 (idxCol (startIdx a1)))
        (Host.gather gather_S50000x128_S800000x1_S800000x128_1_0_n_n_0_1_1128 a0 (idxCol (endIdx a1)))
        a2 (Cert.Graph.rowBlock 128 0 (by omega) a3) (Cert.Graph.rowBlock 128 128 (by omega) a3)
        (Cert.Graph.rowBlock 16 256 (by omega) a3) (Cert.Graph.asRow a4) a5 (Cert.Graph.asRow a6) a7
        (Cert.Graph.asRow a8)))
    (Cert.Graph.rowBlock 128 0 (by omega) a9) (Cert.Graph.rowBlock 128 128 (by omega) a9) (Cert.Graph.asRow a10) a11
    (Cert.Graph.asRow a12)

variable (m : (ℓ : Loc nD τ sig) → Buf (Elt Ideal) ℓ) (ρ : Dev nD → PrngReg)

/-- The edge region's output array: the messages, from the launch memory. -/
theorem messages (c : Dev nD) (h : InTable (m ((c.tc : Thread nD τ).loc main_arg1))) :
    Gen.W5 m ρ c (Proc.devRef .tc main_v12)
      = Cert.Graph.edgeMsg (R := 800000)
      (Host.gather gather_S50000x128_S800000x1_S800000x128_1_0_n_n_0_1_1128 (m ((c.tc : Thread nD τ).loc main_arg0)) (idxCol (startIdx (m ((c.tc : Thread nD τ).loc main_arg1)))))
      (Host.gather gather_S50000x128_S800000x1_S800000x128_1_0_n_n_0_1_1128 (m ((c.tc : Thread nD τ).loc main_arg0)) (idxCol (endIdx (m ((c.tc : Thread nD τ).loc main_arg1)))))
      (m ((c.tc : Thread nD τ).loc main_arg2)) (Cert.Graph.rowBlock 128 0 (by omega) (m ((c.tc : Thread nD τ).loc main_arg3))) (Cert.Graph.rowBlock 128 128 (by omega) (m ((c.tc : Thread nD τ).loc main_arg3)))
      (Cert.Graph.rowBlock 16 256 (by omega) (m ((c.tc : Thread nD τ).loc main_arg3))) (Cert.Graph.asRow (m ((c.tc : Thread nD τ).loc main_arg4))) (m ((c.tc : Thread nD τ).loc main_arg5))
      (Cert.Graph.asRow (m ((c.tc : Thread nD τ).loc main_arg6))) (m ((c.tc : Thread nD τ).loc main_arg7)) (Cert.Graph.asRow (m ((c.tc : Thread nD τ).loc main_arg8))) := by
  rw [exit0_v12, Cert.KernelIdeal.EdgeValue.arr (Gen.V4 m ρ) c]
  dsimp only [Gen.V4]
  rw [entry0_v4, entry0_v5, entry0_arg2, entry0_v6, entry0_v7, entry0_v8, entry0_v9, entry0_arg5, entry0_v10,
    entry0_arg7, entry0_v11]
  rw [takeRows_eq_gather _ _ (fun k => by obtain ⟨i, hi⟩ := startIdx_mem (m ((c.tc : Thread nD τ).loc main_arg1)) k; rw [hi]; exact h i),
    takeRows_eq_gather _ _ (fun k => by obtain ⟨i, hi⟩ := endIdx_mem (m ((c.tc : Thread nD τ).loc main_arg1)) k; rw [hi]; exact h i)]
  rw [Cert.Graph.slice_eq_rowBlock (by omega : 0 + 128 ≤ 272), Cert.Graph.slice_eq_rowBlock (by omega : 128 + 128 ≤ 272),
    Cert.Graph.slice_eq_rowBlock (by omega : 256 + 16 ≤ 272), Cert.Graph.reshape_eq_asRow, Cert.Graph.reshape_eq_asRow,
    Cert.Graph.reshape_eq_asRow]

/-- The kernel program's result array: the layer of the launch memory. -/
theorem result (c : Dev nD) (h : InTable (m ((c.tc : Thread nD τ).loc main_arg1))) :
    Gen.W7 m ρ c (Proc.devRef .tc main_v20)
      = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) := by
  unfold layer
  rw [exit1_v20, Cert.KernelIdeal.NodeValue.arr (Gen.V6 m ρ) c]
  dsimp only [Gen.V6]
  rw [entry1_arg0, entry1_v15, entry1_v16, entry1_v17, entry1_v18, entry1_arg11, entry1_v19]
  rw [messages m ρ c h]
  rw [exit0_of_ne m ρ c main_arg0 (by decide), exit0_of_ne m ρ c main_v1 (by decide), exit0_of_ne m ρ c main_arg9 (by decide),
    exit0_of_ne m ρ c main_arg10 (by decide), exit0_of_ne m ρ c main_arg11 (by decide),
    exit0_of_ne m ρ c main_arg12 (by decide)]
  rw [entry0_arg0, entry0_v1, entry0_arg9, entry0_arg10, entry0_arg11, entry0_arg12]
  rw [Cert.Graph.slice_eq_rowBlock (by omega : 0 + 128 ≤ 256), Cert.Graph.slice_eq_rowBlock (by omega : 128 + 128 ≤ 256),
    Cert.Graph.reshape_eq_asRow, Cert.Graph.reshape_eq_asRow]

end Cert.KernelIdeal.Result

end
-- ==== Proof.RefValue.lean ====
/-
  The reference's stages as the layer's functions: its gated messages are the edge function of the two gathered
  arrays, the edge features and the weights cut into row blocks; its result is the node function of the node
  features, the scattered sum of the messages and the weights cut into row blocks.

  Each stage is read at a row and a column, bottom up: the concatenated row piece by piece, the first dense layer as
  the sum of its row blocks, x * sigmoid x, the second dense layer, the gate, the product; then the node side the
  same way. The two gathered arrays and the scattered sum are never opened.
-/
import proofs.«400389_j50792283242910_1_alg».proof.Proof.RefRead
import proofs.«400389_j50792283242910_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-! ## Rows of a block of rows -/

/-- Row `a` of the block of rows that starts at row `o` is row `o + a` of the matrix. -/
theorem rowBlock_at {N C n o : Nat} (h : o + n ≤ N) (W : FVec Ideal ⟨2, ![N, C]⟩ .f32) (a : Fin n) (k : Fin C) :
    Cert.Graph.rowBlock n o h W (ix2 a k) = W (ix2 (⟨o + a.val, by have := a.isLt; omega⟩ : Fin N) k) := rfl

/-- Row `a` of the block of rows that starts at row 0 is row `a` of the matrix. -/
theorem rowBlock_zero_at {N C n : Nat} (h : 0 + n ≤ N) (W : FVec Ideal ⟨2, ![N, C]⟩ .f32) (a : Fin n) (k : Fin C) :
    Cert.Graph.rowBlock n 0 h W (ix2 a k) = W (ix2 (⟨a.val, by have := a.isLt; omega⟩ : Fin N) k) :=
  congrArg W (funext fun d => match d with
    | ⟨0, _⟩ => Fin.ext (Nat.zero_add _)
    | ⟨1, _⟩ => rfl)

/-- A vector seen as a matrix of one row, read in that row. -/
theorem asRow_at {n : Nat} (b : FVec Ideal ⟨1, ![n]⟩ .f32) (k : Fin n) :
    Cert.Graph.asRow b (ix2 (0 : Fin 1) k) = b (ix1 k) := rfl

/-! ## The sigmoid as the reference spells it: 1 / (1 + exp (-x)), the two ones as f32 words -/

/-- The reference's quotient is the sigmoid. -/
theorem logistic_expand (t : EReal) :
    Ideal.div (Ideal.ofBits .f32 0x3F800000#32) (Ideal.ofBits .f32 0x3F800000#32 + Ideal.exp (-t))
      = Ideal.logistic t := by
  rw [Ideal.ofBits_one_f32]; rfl

/-- x times the reference's quotient is x * sigmoid x. -/
theorem silu_expand (t : EReal) :
    t * Ideal.div (Ideal.ofBits .f32 0x3F800000#32) (Ideal.ofBits .f32 0x3F800000#32 + Ideal.exp (-t))
      = Cert.Graph.silu t := by
  rw [logistic_expand]; rfl

/-! ## The pieces of the two concatenations along the columns -/

/-- Columns 0 … 127 of the three-piece concatenation are the first piece. -/
theorem cat3_fst (y0 y1 : FVec Ideal S800000x128 .f32) (x2 : FVec Ideal S800000x16 .f32)
    (h : Shape.Concatenates [S800000x128, S800000x128, S800000x16] S800000x272 1) (e : Fin 800000) (a : Fin 128) :
    concatenate S800000x272 1 [⟨S800000x128, y0⟩, ⟨S800000x128, y1⟩, ⟨S800000x16, x2⟩] h
        (ix2 e (⟨a.val, by omega⟩ : Fin 272)) = y0 (ix2 e a) :=
  concatenate_apply_piece (t := S800000x272) 1 [⟨S800000x128, y0⟩, ⟨S800000x128, y1⟩, ⟨S800000x16, x2⟩] h
    (ix2 e (⟨a.val, by omega⟩ : Fin 272)) 0 (by show (0 : Nat) < 3; omega) S800000x128 y0 rfl rfl 0 rfl (ix2 e a)
    (fun b hb => by
      match b with
      | ⟨0, _⟩ => rfl
      | ⟨1, _⟩ => exact absurd rfl hb)
    (by show 0 + a.val = a.val; omega)

/-- Columns 128 … 255 of the three-piece concatenation are the second piece. -/
theorem cat3_snd (y0 y1 : FVec Ideal S800000x128 .f32) (x2 : FVec Ideal S800000x16 .f32)
    (h : Shape.Concatenates [S800000x128, S800000x128, S800000x16] S800000x272 1) (e : Fin 800000) (a : Fin 128) :
    concatenate S800000x272 1 [⟨S800000x128, y0⟩, ⟨S800000x128, y1⟩, ⟨S800000x16, x2⟩] h
        (ix2 e (⟨128 + a.val, by omega⟩ : Fin 272)) = y1 (ix2 e a) :=
  concatenate_apply_piece (t := S800000x272) 1 [⟨S800000x128, y0⟩, ⟨S800000x128, y1⟩, ⟨S800000x16, x2⟩] h
    (ix2 e (⟨128 + a.val, by omega⟩ : Fin 272)) 1 (by show (1 : Nat) < 3; omega) S800000x128 y1 rfl rfl 128 rfl (ix2 e a)
    (fun b hb => by
      match b with
      | ⟨0, _⟩ => rfl
      | ⟨1, _⟩ => exact absurd rfl hb)
    (by show 128 + a.val = 128 + a.val; rfl)

/-- Columns 256 … 271 of the three-piece concatenation are the third piece. -/
theorem cat3_thd (y0 y1 : FVec Ideal S800000x128 .f32) (x2 : FVec Ideal S800000x16 .f32)
    (h : Shape.Concatenates [S800000x128, S800000x128, S800000x16] S800000x272 1) (e : Fin 800000) (a : Fin 16) :
    concatenate S800000x272 1 [⟨S800000x128, y0⟩, ⟨S800000x128, y1⟩, ⟨S800000x16, x2⟩] h
        (ix2 e (⟨256 + a.val, by omega⟩ : Fin 272)) = x2 (ix2 e a) :=
  concatenate_apply_piece (t := S800000x272) 1 [⟨S800000x128, y0⟩, ⟨S800000x128, y1⟩, ⟨S800000x16, x2⟩] h
    (ix2 e (⟨256 + a.val, by omega⟩ : Fin 272)) 2 (by show (2 : Nat) < 3; omega) S800000x16 x2 rfl rfl 256 rfl (ix2 e a)
    (fun b hb => by
      match b with
      | ⟨0, _⟩ => rfl
      | ⟨1, _⟩ => exact absurd rfl hb)
    (by show 256 + a.val = 256 + a.val; rfl)

/-- Columns 0 … 127 of the two-piece concatenation are the first piece. -/
theorem cat2_fst (y0 y1 : FVec Ideal S50000x128 .f32)
    (h : Shape.Concatenates [S50000x128, S50000x128] S50000x256 1) (r : Fin 50000) (a : Fin 128) :
    concatenate S50000x256 1 [⟨S50000x128, y0⟩, ⟨S50000x128, y1⟩] h
        (ix2 r (⟨a.val, by omega⟩ : Fin 256)) = y0 (ix2 r a) :=
  concatenate_apply_piece (t := S50000x256) 1 [⟨S50000x128, y0⟩, ⟨S50000x128, y1⟩] h
    (ix2 r (⟨a.val, by omega⟩ : Fin 256)) 0 (by show (0 : Nat) < 2; omega) S50000x128 y0 rfl rfl 0 rfl (ix2 r a)
    (fun b hb => by
      match b with
      | ⟨0, _⟩ => rfl
      | ⟨1, _⟩ => exact absurd rfl hb)
    (by show 0 + a.val = a.val; omega)

/-- Columns 128 … 255 of the two-piece concatenation are the second piece. -/
theorem cat2_snd (y0 y1 : FVec Ideal S50000x128 .f32)
    (h : Shape.Concatenates [S50000x128, S50000x128] S50000x256 1) (r : Fin 50000) (a : Fin 128) :
    concatenate S50000x256 1 [⟨S50000x128, y0⟩, ⟨S50000x128, y1⟩] h
        (ix2 r (⟨128 + a.val, by omega⟩ : Fin 256)) = y1 (ix2 r a) :=
  concatenate_apply_piece (t := S50000x256) 1 [⟨S50000x128, y0⟩, ⟨S50000x128, y1⟩] h
    (ix2 r (⟨128 + a.val, by omega⟩ : Fin 256)) 1 (by show (1 : Nat) < 2; omega) S50000x128 y1 rfl rfl 128 rfl (ix2 r a)
    (fun b hb => by
      match b with
      | ⟨0, _⟩ => rfl
      | ⟨1, _⟩ => exact absurd rfl hb)
    (by show 128 + a.val = 128 + a.val; rfl)

/-! ## The functions of the specification at a row and a column -/

/-- The edge function at row `e`, column `j`: the row function of row `e` of each of the three arrays. -/
theorem edgeMsg_at {R : Nat} (hs he : FVec Ideal ⟨2, ![R, 128]⟩ .f32) (ef : FVec Ideal ⟨2, ![R, 16]⟩ .f32)
    (Ws We : FVec Ideal ⟨2, ![128, 128]⟩ .f32) (Wf : FVec Ideal ⟨2, ![16, 128]⟩ .f32)
    (b1 : FVec Ideal ⟨2, ![1, 128]⟩ .f32) (W2 : FVec Ideal ⟨2, ![128, 128]⟩ .f32)
    (b2 : FVec Ideal ⟨2, ![1, 128]⟩ .f32) (wi : FVec Ideal ⟨2, ![128, 1]⟩ .f32)
    (bi : FVec Ideal ⟨2, ![1, 1]⟩ .f32) (e : Fin R) (j : Fin 128) :
    Cert.Graph.edgeMsg hs he ef Ws We Wf b1 W2 b2 wi bi (ix2 e j)
      = Cert.Graph.edgeRow (fun a => hs (ix2 e a)) (fun a => he (ix2 e a)) (fun a => ef (ix2 e a))
          (fun a k => Ws (ix2 a k)) (fun a k => We (ix2 a k)) (fun a k => Wf (ix2 a k))
          (fun k => b1 (ix2 (0 : Fin 1) k)) (fun k q => W2 (ix2 k q)) (fun q => b2 (ix2 (0 : Fin 1) q))
          (fun q => wi (ix2 q (0 : Fin 1))) (bi (ix2 (0 : Fin 1) (0 : Fin 1))) j := rfl

/-- The node function at row `r`, column `j`: the row function of row `r` of the features and of the aggregate. -/
theorem nodeOut_at {R : Nat} (nf ag : FVec Ideal ⟨2, ![R, 128]⟩ .f32)
    (Wa Wb : FVec Ideal ⟨2, ![128, 128]⟩ .f32) (b1 : FVec Ideal ⟨2, ![1, 128]⟩ .f32)
    (W2 : FVec Ideal ⟨2, ![128, 128]⟩ .f32) (b2 : FVec Ideal ⟨2, ![1, 128]⟩ .f32) (r : Fin R) (j : Fin 128) :
    Cert.Graph.nodeOut nf ag Wa Wb b1 W2 b2 (ix2 r j)
      = Cert.Graph.nodeRow (fun a => nf (ix2 r a)) (fun a => ag (ix2 r a))
          (fun a k => Wa (ix2 a k)) (fun a k => Wb (ix2 a k)) (fun k => b1 (ix2 (0 : Fin 1) k))
          (fun k q => W2 (ix2 k q)) (fun q => b2 (ix2 (0 : Fin 1) q)) j := rfl

/-! ## The reference's edge stages at a row and a column -/

section Edge

variable (x0 : FVec Ideal S50000x128 .f32) (x1 : IVec S2x800000 32) (x2 : FVec Ideal S800000x16 .f32)
    (x3 : FVec Ideal S272x128 .f32) (x4 : FVec Ideal S128 .f32) (x5 : FVec Ideal S128x128 .f32)
    (x6 : FVec Ideal S128 .f32) (x7 : FVec Ideal S128x1 .f32) (x8 : FVec Ideal S1 .f32)

/-- The concatenated row, in its first 128 columns, is the row gathered at the edge's first end. -/
theorem v18_fst (e : Fin 800000) (a : Fin 128) :
    val_main_v18 (F := Ideal) x0 x1 x2 (ix2 e (⟨a.val, by omega⟩ : Fin 272))
      = val_main_v10 (F := Ideal) x0 x1 (ix2 e a) := by
  unfold val_main_v18
  generalize val_main_v10 (F := Ideal) x0 x1 = y0
  generalize val_main_v17 (F := Ideal) x0 x1 = y1
  exact cat3_fst y0 y1 x2 _ e a

/-- In its next 128 columns it is the row gathered at the edge's second end. -/
theorem v18_snd (e : Fin 800000) (a : Fin 128) :
    val_main_v18 (F := Ideal) x0 x1 x2 (ix2 e (⟨128 + a.val, by omega⟩ : Fin 272))
      = val_main_v17 (F := Ideal) x0 x1 (ix2 e a) := by
  unfold val_main_v18
  generalize val_main_v10 (F := Ideal) x0 x1 = y0
  generalize val_main_v17 (F := Ideal) x0 x1 = y1
  exact cat3_snd y0 y1 x2 _ e a

/-- In its last 16 columns it is the edge's own features. -/
theorem v18_thd (e : Fin 800000) (a : Fin 16) :
    val_main_v18 (F := Ideal) x0 x1 x2 (ix2 e (⟨256 + a.val, by omega⟩ : Fin 272)) = x2 (ix2 e a) := by
  unfold val_main_v18
  generalize val_main_v10 (F := Ideal) x0 x1 = y0
  generalize val_main_v17 (F := Ideal) x0 x1 = y1
  exact cat3_thd y0 y1 x2 _ e a

/-- The first product's left index: row `e`, column `c`. -/
theorem lidx19 (e : Fin 800000) (k : Fin 128) (c : Fin 272) : lidx_main_v19 (ix2 e k) c = ix2 e c :=
  funext fun d => match d with
    | ⟨0, _⟩ => rfl
    | ⟨1, _⟩ => rfl

/-- The first product's right index: row `c`, column `k`. -/
theorem ridx19 (e : Fin 800000) (k : Fin 128) (c : Fin 272) : ridx_main_v19 (ix2 e k) c = ix2 c k :=
  funext fun d => match d with
    | ⟨0, _⟩ => rfl
    | ⟨1, _⟩ => rfl

/-- The first dense layer before its bias: the sum over the 272 concatenated columns is the three block sums. -/
theorem v19_at (e : Fin 800000) (k : Fin 128) :
    val_main_v19 (F := Ideal) x0 x1 x2 x3 (ix2 e k)
      = ((∑ a : Fin 128, val_main_v10 (F := Ideal) x0 x1 (ix2 e a) * Cert.Graph.rowBlock 128 0 (by omega) x3 (ix2 a k))
          + ∑ a : Fin 128, val_main_v17 (F := Ideal) x0 x1 (ix2 e a) * Cert.Graph.rowBlock 128 128 (by omega) x3 (ix2 a k))
        + ∑ a : Fin 16, x2 (ix2 e a) * Cert.Graph.rowBlock 16 256 (by omega) x3 (ix2 a k) := by
  rw [val_main_v19_apply, Cert.Graph.sum_272]
  refine congrArg₂ (· + ·) (congrArg₂ (· + ·) (Finset.sum_congr rfl fun a _ => ?_)
    (Finset.sum_congr rfl fun a _ => ?_)) (Finset.sum_congr rfl fun a _ => ?_)
  · rw [lidx19, ridx19, v18_fst, rowBlock_zero_at]
  · rw [lidx19, ridx19, v18_snd, rowBlock_at]
  · rw [lidx19, ridx19, v18_thd, rowBlock_at]

/-- The first dense layer with its bias. -/
theorem v22_at (e : Fin 800000) (k : Fin 128) :
    val_main_v22 (F := Ideal) x0 x1 x2 x3 x4 (ix2 e k)
      = (((∑ a : Fin 128, val_main_v10 (F := Ideal) x0 x1 (ix2 e a) * Cert.Graph.rowBlock 128 0 (by omega) x3 (ix2 a k))
          + ∑ a : Fin 128, val_main_v17 (F := Ideal) x0 x1 (ix2 e a) * Cert.Graph.rowBlock 128 128 (by omega) x3 (ix2 a k))
        + ∑ a : Fin 16, x2 (ix2 e a) * Cert.Graph.rowBlock 16 256 (by omega) x3 (ix2 a k))
        + Cert.Graph.asRow x4 (ix2 (0 : Fin 1) k) := by
  rw [val_main_v22_apply, Ideal.addf_def, v19_at, val_main_v21_apply, val_main_v20_apply, asRow_at]
  exact congrArg _ (congrArg x4 (funext fun d => match d with
    | ⟨0, _⟩ => rfl))

/-- The activation: x * sigmoid x of the first layer. -/
theorem v23_at (e : Fin 800000) (k : Fin 128) :
    val_main_v23 (F := Ideal) x0 x1 x2 x3 x4 (ix2 e k)
      = Cert.Graph.silu (val_main_v22 (F := Ideal) x0 x1 x2 x3 x4 (ix2 e k)) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  generalize val_main_v22 (F := Ideal) x0 x1 x2 x3 x4 (ix2 e k) = t
  exact silu_expand t

/-- The second product's left index. -/
theorem lidx24 (e : Fin 800000) (j k : Fin 128) : lidx_main_v24 (ix2 e j) k = ix2 e k :=
  funext fun d => match d with
    | ⟨0, _⟩ => rfl
    | ⟨1, _⟩ => rfl

/-- The second product's right index. -/
theorem ridx24 (e : Fin 800000) (j k : Fin 128) : ridx_main_v24 (ix2 e j) k = ix2 k j :=
  funext fun d => match d with
    | ⟨0, _⟩ => rfl
    | ⟨1, _⟩ => rfl

/-- The second dense layer with its bias: the message before its gate. -/
theorem v27_at (e : Fin 800000) (j : Fin 128) :
    val_main_v27 (F := Ideal) x0 x1 x2 x3 x4 x5 x6 (ix2 e j)
      = (∑ k : Fin 128, val_main_v23 (F := Ideal) x0 x1 x2 x3 x4 (ix2 e k) * x5 (ix2 k j))
        + Cert.Graph.asRow x6 (ix2 (0 : Fin 1) j) := by
  rw [val_main_v27_apply, Ideal.addf_def, val_main_v24_apply, val_main_v26_apply, val_main_v25_apply, asRow_at]
  refine congrArg₂ (· + ·) (Finset.sum_congr rfl fun k _ => ?_) (congrArg x6 (funext fun d => match d with
    | ⟨0, _⟩ => rfl))
  rw [lidx24, ridx24]

/-- The gate product's left index. -/
theorem lidx28 (e : Fin 800000) (q : Fin 128) : lidx_main_v28 (ix2 e (0 : Fin 1)) q = ix2 e q :=
  funext fun d => match d with
    | ⟨0, _⟩ => rfl
    | ⟨1, _⟩ => rfl

/-- The gate product's right index. -/
theorem ridx28 (e : Fin 800000) (q : Fin 128) : ridx_main_v28 (ix2 e (0 : Fin 1)) q = ix2 q (0 : Fin 1) :=
  funext fun d => match d with
    | ⟨0, _⟩ => rfl
    | ⟨1, _⟩ => rfl

/-- The gate's logit: the message against the gate vector, plus the gate bias. -/
theorem v31_at (e : Fin 800000) :
    val_main_v31 (F := Ideal) x0 x1 x2 x3 x4 x5 x6 x7 x8 (ix2 e (0 : Fin 1))
      = (∑ q : Fin 128, val_main_v27 (F := Ideal) x0 x1 x2 x3 x4 x5 x6 (ix2 e q) * x7 (ix2 q (0 : Fin 1)))
        + Cert.Graph.asRow x8 (ix2 (0 : Fin 1) (0 : Fin 1)) := by
  rw [val_main_v31_apply, Ideal.addf_def, val_main_v28_apply, val_main_v30_apply, val_main_v29_apply, asRow_at]
  refine congrArg₂ (· + ·) (Finset.sum_congr rfl fun q _ => ?_) (congrArg x8 (funext fun d => match d with
    | ⟨0, _⟩ => rfl))
  rw [lidx28, ridx28]

/-- The gate: the sigmoid of the logit. -/
theorem v37_at (e : Fin 800000) :
    val_main_v37 (F := Ideal) x0 x1 x2 x3 x4 x5 x6 x7 x8 (ix2 e (0 : Fin 1))
      = Ideal.logistic (val_main_v31 (F := Ideal) x0 x1 x2 x3 x4 x5 x6 x7 x8 (ix2 e (0 : Fin 1))) := by
  rw [val_main_v37_apply, val_main_v36_apply, val_main_cst_3_apply, val_main_v35_apply, val_main_v34_apply,
    val_main_cst_apply, val_main_v33_apply, val_main_v32_apply]
  generalize val_main_v31 (F := Ideal) x0 x1 x2 x3 x4 x5 x6 x7 x8 (ix2 e (0 : Fin 1)) = t
  exact logistic_expand t

/-- The gated message: the message times its edge's gate. -/
theorem v39_at (e : Fin 800000) (j : Fin 128) :
    val_main_v39 (F := Ideal) x0 x1 x2 x3 x4 x5 x6 x7 x8 (ix2 e j)
      = val_main_v27 (F := Ideal) x0 x1 x2 x3 x4 x5 x6 (ix2 e j)
        * val_main_v37 (F := Ideal) x0 x1 x2 x3 x4 x5 x6 x7 x8 (ix2 e (0 : Fin 1)) := by
  rw [val_main_v39_apply, Ideal.mulf_def, val_main_v38_apply]
  exact congrArg _ (congrArg (val_main_v37 (F := Ideal) x0 x1 x2 x3 x4 x5 x6 x7 x8) (funext fun d => match d with
    | ⟨0, _⟩ => rfl
    | ⟨1, _⟩ => rfl))

end Edge

/-- The reference's gated messages are the edge function of its two gathered arrays. -/
theorem message_eq (x0 : FVec Ideal S50000x128 .f32) (x1 : IVec S2x800000 32) (x2 : FVec Ideal S800000x16 .f32)
    (x3 : FVec Ideal S272x128 .f32) (x4 : FVec Ideal S128 .f32) (x5 : FVec Ideal S128x128 .f32)
    (x6 : FVec Ideal S128 .f32) (x7 : FVec Ideal S128x1 .f32) (x8 : FVec Ideal S1 .f32) :
    val_main_v39 (F := Ideal) x0 x1 x2 x3 x4 x5 x6 x7 x8
      = Cert.Graph.edgeMsg (R := 800000) (val_main_v10 (F := Ideal) x0 x1) (val_main_v17 (F := Ideal) x0 x1) x2
          (Cert.Graph.rowBlock 128 0 (by omega) x3) (Cert.Graph.rowBlock 128 128 (by omega) x3)
          (Cert.Graph.rowBlock 16 256 (by omega) x3) (Cert.Graph.asRow x4) x5 (Cert.Graph.asRow x6) x7
          (Cert.Graph.asRow x8) := by
  funext i
  obtain ⟨e, j, rfl⟩ : ∃ (e : Fin 800000) (j : Fin 128), i = ix2 e j := ⟨i 0, i 1, eq_ix2 i⟩
  rw [edgeMsg_at, v39_at, v37_at, v31_at]
  unfold Cert.Graph.edgeRow
  simp only [v27_at, v23_at, v22_at]

/-! ## The reference's node stages at a row and a column -/

section Node

variable (x0 : FVec Ideal S50000x128 .f32) (x1 : IVec S2x800000 32) (x2 : FVec Ideal S800000x16 .f32)
    (x3 : FVec Ideal S272x128 .f32) (x4 : FVec Ideal S128 .f32) (x5 : FVec Ideal S128x128 .f32)
    (x6 : FVec Ideal S128 .f32) (x7 : FVec Ideal S128x1 .f32) (x8 : FVec Ideal S1 .f32)
    (x9 : FVec Ideal S256x128 .f32) (x10 : FVec Ideal S128 .f32) (x11 : FVec Ideal S128x128 .f32)
    (x12 : FVec Ideal S128 .f32)

/-- The concatenated row, in its first 128 columns, is the node's own features. -/
theorem v43_fst (r : Fin 50000) (a : Fin 128) :
    val_main_v43 (F := Ideal) x0 x1 x2 x3 x4 x5 x6 x7 x8 (ix2 r (⟨a.val, by omega⟩ : Fin 256)) = x0 (ix2 r a) := by
  unfold val_main_v43
  generalize val_main_v42 (F := Ideal) x0 x1 x2 x3 x4 x5 x6 x7 x8 = y1
  exact cat2_fst x0 y1 _ r a

/-- In its last 128 columns it is the node's aggregated messages. -/
theorem v43_snd (r : Fin 50000) (a : Fin 128) :
    val_main_v43 (F := Ideal) x0 x1 x2 x3 x4 x5 x6 x7 x8 (ix2 r (⟨128 + a.val, by omega⟩ : Fin 256))
      = val_main_v42 (F := Ideal) x0 x1 x2 x3 x4 x5 x6 x7 x8 (ix2 r a) := by
  unfold val_main_v43
  generalize val_main_v42 (F := Ideal) x0 x1 x2 x3 x4 x5 x6 x7 x8 = y1
  exact cat2_snd x0 y1 _ r a

/-- The node's first product's left index. -/
theorem lidx44 (r : Fin 50000) (k : Fin 128) (c : Fin 256) : lidx_main_v44 (ix2 r k) c = ix2 r c :=
  funext fun d => match d with
    | ⟨0, _⟩ => rfl
    | ⟨1, _⟩ => rfl

/-- The node's first product's right index. -/
theorem ridx44 (r : Fin 50000) (k : Fin 128) (c : Fin 256) : ridx_main_v44 (ix2 r k) c = ix2 c k :=
  funext fun d => match d with
    | ⟨0, _⟩ => rfl
    | ⟨1, _⟩ => rfl

/-- The node's first dense layer with its bias: the sum over the 256 concatenated columns is the two block sums. -/
theorem v47_at (r : Fin 50000) (k : Fin 128) :
    val_main_v47 (F := Ideal) x0 x1 x2 x3 x4 x5 x6 x7 x8 x9 x10 (ix2 r k)
      = ((∑ a : Fin 128, x0 (ix2 r a) * Cert.Graph.rowBlock 128 0 (by omega) x9 (ix2 a k))
          + ∑ a : Fin 128, val_main_v42 (F := Ideal) x0 x1 x2 x3 x4 x5 x6 x7 x8 (ix2 r a)
              * Cert.Graph.rowBlock 128 128 (by omega) x9 (ix2 a k))
        + Cert.Graph.asRow x10 (ix2 (0 : Fin 1) k) := by
  rw [val_main_v47_apply, Ideal.addf_def, val_main_v44_apply, Cert.Graph.sum_256, val_main_v46_apply,
    val_main_v45_apply, asRow_at]
  refine congrArg₂ (· + ·) (congrArg₂ (· + ·) (Finset.sum_congr rfl fun a _ => ?_)
    (Finset.sum_congr rfl fun a _ => ?_)) (congrArg x10 (funext fun d => match d with
      | ⟨0, _⟩ => rfl))
  · rw [lidx44, ridx44, v43_fst, rowBlock_zero_at]
  · rw [lidx44, ridx44, v43_snd, rowBlock_at]

/-- The node's activation: x * sigmoid x of its first layer. -/
theorem v48_at (r : Fin 50000) (k : Fin 128) :
    val_main_v48 (F := Ideal) x0 x1 x2 x3 x4 x5 x6 x7 x8 x9 x10 (ix2 r k)
      = Cert.Graph.silu (val_main_v47 (F := Ideal) x0 x1 x2 x3 x4 x5 x6 x7 x8 x9 x10 (ix2 r k)) := by
  rw [val_main_v48_apply, val_main_call1_v5_apply, val_main_call1_v4_apply, val_main_call1_cst_0_apply,
    val_main_call1_v3_apply, val_main_call1_v2_apply, val_main_call1_cst_apply, val_main_call1_v1_apply,
    val_main_call1_v0_apply]
  generalize val_main_v47 (F := Ideal) x0 x1 x2 x3 x4 x5 x6 x7 x8 x9 x10 (ix2 r k) = t
  exact silu_expand t

/-- The node's second product's left index. -/
theorem lidx49 (r : Fin 50000) (j k : Fin 128) : lidx_main_v49 (ix2 r j) k = ix2 r k :=
  funext fun d => match d with
    | ⟨0, _⟩ => rfl
    | ⟨1, _⟩ => rfl

/-- The node's second product's right index. -/
theorem ridx49 (r : Fin 50000) (j k : Fin 128) : ridx_main_v49 (ix2 r j) k = ix2 k j :=
  funext fun d => match d with
    | ⟨0, _⟩ => rfl
    | ⟨1, _⟩ => rfl

/-- The node's second dense layer with its bias. -/
theorem v52_at (r : Fin 50000) (j : Fin 128) :
    val_main_v52 (F := Ideal) x0 x1 x2 x3 x4 x5 x6 x7 x8 x9 x10 x11 x12 (ix2 r j)
      = (∑ k : Fin 128, val_main_v48 (F := Ideal) x0 x1 x2 x3 x4 x5 x6 x7 x8 x9 x10 (ix2 r k) * x11 (ix2 k j))
        + Cert.Graph.asRow x12 (ix2 (0 : Fin 1) j) := by
  rw [val_main_v52_apply, Ideal.addf_def, val_main_v49_apply, val_main_v51_apply, val_main_v50_apply, asRow_at]
  refine congrArg₂ (· + ·) (Finset.sum_congr rfl fun k _ => ?_) (congrArg x12 (funext fun d => match d with
    | ⟨0, _⟩ => rfl))
  rw [lidx49, ridx49]

end Node

/-- The reference's result is the node function of the node features and the scattered sum of the messages. -/
theorem result_eq (x0 : FVec Ideal S50000x128 .f32) (x1 : IVec S2x800000 32) (x2 : FVec Ideal S800000x16 .f32)
    (x3 : FVec Ideal S272x128 .f32) (x4 : FVec Ideal S128 .f32) (x5 : FVec Ideal S128x128 .f32)
    (x6 : FVec Ideal S128 .f32) (x7 : FVec Ideal S128x1 .f32) (x8 : FVec Ideal S1 .f32)
    (x9 : FVec Ideal S256x128 .f32) (x10 : FVec Ideal S128 .f32) (x11 : FVec Ideal S128x128 .f32)
    (x12 : FVec Ideal S128 .f32) :
    val_main_v53 (F := Ideal) x0 x1 x2 x3 x4 x5 x6 x7 x8 x9 x10 x11 x12
      = Cert.Graph.nodeOut (R := 50000) x0 (val_main_v42 (F := Ideal) x0 x1 x2 x3 x4 x5 x6 x7 x8)
          (Cert.Graph.rowBlock 128 0 (by omega) x9) (Cert.Graph.rowBlock 128 128 (by omega) x9)
          (Cert.Graph.asRow x10) x11 (Cert.Graph.asRow x12) := by
  funext i
  obtain ⟨r, j, rfl⟩ : ∃ (r : Fin 50000) (j : Fin 128), i = ix2 r j := ⟨i 0, i 1, eq_ix2 i⟩
  rw [nodeOut_at, val_main_v53_apply, Ideal.addf_def]
  unfold Cert.Graph.nodeRow
  simp only [v52_at, v48_at, v47_at]

end Cert.ReferenceIdeal.RefValue

end
-- ==== Proof.PreRange.lean ====
/-
  The precondition read at one edge-index entry: every entry of the 2 x 800000 index array is, as a signed word,
  at least 0 and below 50000. The precondition is a conjunction of "all" reductions; its last two conjuncts are the
  reductions of the two comparisons, and a reduction by "and" into a single result that is 1 had a 1 at every entry.
-/
import proofs.«400389_j50792283242910_1_alg».proof.Pre_finite_inputs
import Idealize.ShloMosaic.Lib.ReduceAll
import Idealize.ShloMosaic.Lib.ValueIdx

noncomputable section

namespace Cert.PreRange

open Idealize.ShloMosaic Cert.Pre_finite_inputs

/-- A rank-0 array has one index. -/
instance : Subsingleton S_.Idx := ⟨fun a b => funext fun d => d.elim0⟩

variable {F : FTy → Type} [FloatOps F] [Cert.Pre_finite_inputs.Facts]

/-- Where the precondition holds, each index word is in [0, 50000) as a signed word. -/
theorem index_bounds (a0 : FVec F S50000x128 .f32) (a1 : IVec S2x800000 32) (a2 : FVec F S800000x16 .f32)
    (a3 : FVec F S272x128 .f32) (a4 : FVec F S128 .f32) (a5 : FVec F S128x128 .f32) (a6 : FVec F S128 .f32)
    (a7 : FVec F S128x1 .f32) (a8 : FVec F S1 .f32) (a9 : FVec F S256x128 .f32) (a10 : FVec F S128 .f32)
    (a11 : FVec F S128x128 .f32) (a12 : FVec F S128 .f32)
    (h : fn (F := F) a0 a1 a2 a3 a4 a5 a6 a7 a8 a9 a10 a11 a12 = fun _ => 1#1) (i : S2x800000.Idx) :
    IntOp.cmpi .sge (a1 i) 0#32 = 1#1 ∧ IntOp.cmpi .slt (a1 i) 50000#32 = 1#1 := by
  have e := congrFun h ValueIdx.ix0
  dsimp only [fn, fn_part1, fn_part2, fn_part3] at e
  obtain ⟨e1, e65⟩ := IntOp.andi_eq_one.1 e
  obtain ⟨-, e61⟩ := IntOp.andi_eq_one.1 e1
  exact ⟨Host.reduce_andi_all _ _ _ _ _ e61 i, Host.reduce_andi_all _ _ _ _ _ e65 i⟩

end Cert.PreRange

end
-- ==== Proof.Bridge.lean ====
/-
  The reference's result is the same layer function of the thirteen arguments as the kernel program's: its node
  function is applied to its own scattered sum of its own edge function's messages, and its gathers, its scatter and
  its index arithmetic are, operation by operation, the kernel program's host operations on the same arguments.
-/
import proofs.«400389_j50792283242910_1_alg».proof.Proof.KernelValue
import proofs.«400389_j50792283242910_1_alg».proof.Proof.RefValue

set_option maxRecDepth 16384

noncomputable section

namespace Cert.Proof.Bridge

open Idealize.ShloMosaic
open Cert.KernelIdeal.HostValue (idxCol startIdx endIdx)

attribute [local irreducible] Host.gather Host.scatterAdd Cert.Graph.edgeMsg Cert.Graph.nodeOut

/-- The reference's gather of the source nodes' rows is the kernel program's. -/
theorem gather_start (x0 : FVec Ideal Cert.KernelIdeal.S50000x128 .f32) (x1 : IVec Cert.KernelIdeal.S2x800000 32) :
    Cert.ReferenceIdeal.Read.val_main_v10 (F := Ideal) x0 x1
      = Host.gather Cert.KernelIdeal.gather_S50000x128_S800000x1_S800000x128_1_0_n_n_0_1_1128 x0 (idxCol (startIdx x1)) := rfl

/-- The reference's gather of the target nodes' rows is the kernel program's. -/
theorem gather_end (x0 : FVec Ideal Cert.KernelIdeal.S50000x128 .f32) (x1 : IVec Cert.KernelIdeal.S2x800000 32) :
    Cert.ReferenceIdeal.Read.val_main_v17 (F := Ideal) x0 x1
      = Host.gather Cert.KernelIdeal.gather_S50000x128_S800000x1_S800000x128_1_0_n_n_0_1_1128 x0 (idxCol (endIdx x1)) := rfl

/-- The reference's scattered sum, of any messages, is the kernel program's. -/
theorem scatter_eq (x1 : IVec Cert.KernelIdeal.S2x800000 32) (u : FVec Ideal Cert.KernelIdeal.S800000x128 .f32) :
    Host.scatterAdd (F := Ideal) Cert.ReferenceIdeal.scatter_S50000x128_S800000x1_S800000x128_1_0_0_1
        (Cert.ReferenceIdeal.Read.val_main_v40 (F := Ideal)) (Cert.ReferenceIdeal.Read.val_main_v41 (F := Ideal) x1) u
      = Host.scatterAdd Cert.KernelIdeal.scatter_S50000x128_S800000x1_S800000x128_1_0_0_1
          (broadcastInDim Cert.KernelIdeal.S50000x128 ![] Cert.KernelIdeal.Facts₀.bcast_S_S50000x128
            (constant (F := Ideal) Cert.KernelIdeal.S_ .f32 0x00000000#32))
          (broadcastInDim Cert.KernelIdeal.S800000x1 ![0] Cert.KernelIdeal.Facts₀.bcast_S800000_S800000x1_0 (startIdx x1)) u := rfl

/-- The reference's result stage is the layer of its arguments. -/
theorem ref_is_layer (x0 : FVec Ideal Cert.KernelIdeal.S50000x128 .f32) (x1 : IVec Cert.KernelIdeal.S2x800000 32)
    (x2 : FVec Ideal Cert.KernelIdeal.S800000x16 .f32) (x3 : FVec Ideal Cert.KernelIdeal.S272x128 .f32)
    (x4 : FVec Ideal Cert.KernelIdeal.S128 .f32) (x5 : FVec Ideal Cert.KernelIdeal.S128x128 .f32)
    (x6 : FVec Ideal Cert.KernelIdeal.S128 .f32) (x7 : FVec Ideal Cert.KernelIdeal.S128x1 .f32)
    (x8 : FVec Ideal Cert.KernelIdeal.S1 .f32) (x9 : FVec Ideal Cert.KernelIdeal.S256x128 .f32)
    (x10 : FVec Ideal Cert.KernelIdeal.S128 .f32) (x11 : FVec Ideal Cert.KernelIdeal.S128x128 .f32)
    (x12 : FVec Ideal Cert.KernelIdeal.S128 .f32) :
    Cert.ReferenceIdeal.Read.val_main_v53 (F := Ideal) x0 x1 x2 x3 x4 x5 x6 x7 x8 x9 x10 x11 x12
      = Cert.KernelIdeal.Result.layer x0 x1 x2 x3 x4 x5 x6 x7 x8 x9 x10 x11 x12 := by
  rw [Cert.ReferenceIdeal.RefValue.result_eq]
  have h42 : Cert.ReferenceIdeal.Read.val_main_v42 (F := Ideal) x0 x1 x2 x3 x4 x5 x6 x7 x8
      = Host.scatterAdd (F := Ideal) (φ := .f32) Cert.ReferenceIdeal.scatter_S50000x128_S800000x1_S800000x128_1_0_0_1
          (Cert.ReferenceIdeal.Read.val_main_v40 (F := Ideal)) (Cert.ReferenceIdeal.Read.val_main_v41 (F := Ideal) x1)
          (Cert.ReferenceIdeal.Read.val_main_v39 (F := Ideal) x0 x1 x2 x3 x4 x5 x6 x7 x8) := by
    unfold Cert.ReferenceIdeal.Read.val_main_v42; rfl
  rw [h42, Cert.ReferenceIdeal.RefValue.message_eq, gather_start, gather_end, scatter_eq]
  rfl

end Cert.Proof.Bridge

end
-- ==== Proof.lean ====
/-
  The kernel: a gated message-passing layer over 50000 nodes and 800000 edges. Each edge gathers its source and
  target nodes' feature rows; an edge MLP (a dense layer whose weight matrix is cut into three row blocks, x * sigmoid x,
  a second dense layer) gives its message, which a scalar sigmoid gate multiplies; the messages are summed per source
  node; a node MLP (a dense layer cut into two row blocks, x * sigmoid x, a second dense layer) of each node's
  features and aggregate is added to the node's features. The reference does the same with the three (two) inputs
  concatenated and the weight matrices whole.

  Over the extended reals the two agree: a sum over the concatenated axis is the sum of its blocks, in any
  commutative monoid, so no finiteness is used; sigmoid is one function on both sides; a change of float format is the
  identity. The one difference is outside the table: the kernel's take of node rows fills a row with a
  not-a-number word where the index is out of [0, 50000), the reference's indexing clamps. The precondition keeps
  every index inside the table, where the take's in-bounds test is 1 and the take is the gather.

  The frames are the generated ones; the kernel's run with its result kept is the generated launch called once more;
  the reference's run is the generated one with its two inlined calls' operations written on the buffers themselves.
-/
import proofs.«400389_j50792283242910_1_alg».proof.Defs
import proofs.«400389_j50792283242910_1_alg».proof.Proof.Gen.Kernel
import proofs.«400389_j50792283242910_1_alg».proof.Proof.Gen.Kernel.Skeleton
import proofs.«400389_j50792283242910_1_alg».proof.Proof.Gen.Kernel.Launch
import proofs.«400389_j50792283242910_1_alg».proof.Proof.Gen.Kernel.Points
import proofs.«400389_j50792283242910_1_alg».proof.Proof.Gen.Kernel.Frame
import proofs.«400389_j50792283242910_1_alg».proof.Proof.Gen.KernelIdeal
import proofs.«400389_j50792283242910_1_alg».proof.Proof.Gen.KernelIdeal.Skeleton
import proofs.«400389_j50792283242910_1_alg».proof.Proof.Gen.KernelIdeal.Launch
import proofs.«400389_j50792283242910_1_alg».proof.Proof.Gen.KernelIdeal.Points
import proofs.«400389_j50792283242910_1_alg».proof.Proof.Gen.KernelIdeal.Frame
import proofs.«400389_j50792283242910_1_alg».proof.Proof.Gen.ReferenceIdeal
import proofs.«400389_j50792283242910_1_alg».proof.Proof.Gen.Pre_finite_inputs
import proofs.«400389_j50792283242910_1_alg».proof.Proof.KernelRun
import proofs.«400389_j50792283242910_1_alg».proof.Proof.KernelValue
import proofs.«400389_j50792283242910_1_alg».proof.Proof.RefRun
import proofs.«400389_j50792283242910_1_alg».proof.Proof.RefRead
import proofs.«400389_j50792283242910_1_alg».proof.Proof.RefValue
import proofs.«400389_j50792283242910_1_alg».proof.Proof.PreRange
import proofs.«400389_j50792283242910_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Under the precondition every index word of the kernel's index array is inside the table. -/
theorem in_table (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.Result.InTable (m ((c.tc : Thread Cert.KernelIdeal.nD Cert.KernelIdeal.τ).loc Cert.KernelIdeal.main_arg1)) :=
  fun i => Cert.PreRange.index_bounds _ _ _ _ _ _ _ _ _ _ _ _ _ (h c) i

/-- Both programs end with the layer of the arguments in their result array. -/
theorem algebraic : Cert.algebraic_KernelIdeal_ReferenceIdeal := by
  intro m ρ m' ρ' hpre hagree
  refine ⟨fun c => Cert.KernelIdeal.Result.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => (m ((c.tc : Thread Cert.KernelIdeal.nD Cert.KernelIdeal.τ).loc Cert.KernelIdeal.main_arg1)), fun c => (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Run.run (F := Ideal) m ρ)
    obtain ⟨h20, h0, h1, h2, h3, h4, h5, h6, h7, h8, h9, h10, h11, h12⟩ := h c
    exact ⟨h20.trans (Cert.KernelIdeal.Result.result m ρ c (in_table m hpre c)), h1, h2, h0, h1, h2, h3, h4, h5, h6, h7,
      h8, h9, h10, h11, h12⟩
  · refine (θ_run Cert.ReferenceIdeal.defs _ _).mono (fun r h c => ?_) (Cert.ReferenceIdeal.Value.run (F := Ideal) m' ρ')
    obtain ⟨h53, g1, g2, h0, h1, h2, h3, h4, h5, h6, h7, h8, h9, h10, h11, h12⟩ := h c
    obtain ⟨a0, a1, a2, a3, a4, a5, a6, a7, a8, a9, a10, a11, a12⟩ := hagree c
    refine ⟨?_, g1.trans a1, g2.trans a2, h0, h1, h2, h3, h4, h5, h6, h7, h8, h9, h10, h11, h12⟩
    rw [h53, Cert.ReferenceIdeal.Read.val_main_v53_eq, Cert.Proof.Bridge.ref_is_layer, a0, a1, a2, a3, a4, a5, a6, a7, a8,
      a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
